-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S10000x256 .f32) (main_arg1 : FVec F S10000x10000 .f32) (main_arg2 : FVec F S256x256 .f32) (main_arg3 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S384x256 : Shape := ⟨2, ![384, 256]⟩
abbrev S10000x384 : Shape := ⟨2, ![10000, 384]⟩

abbrev nBuf : Space → Nat
  | .hbm => 7
  | .vmem => 7
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S1x256, .f32⟩
  | .hbm, ⟨6, _⟩ => ⟨S10000x256, .f32⟩
  | .local _ .vmem, ⟨0, _⟩ => ⟨S384x256, .f32⟩
  | .local _ .vmem, ⟨1, _⟩ => ⟨S384x256, .f32⟩
  | .local _ .vmem, ⟨2, _⟩ => ⟨S256x256, .f32⟩
  | .local _ .vmem, ⟨3, _⟩ => ⟨S1x256, .f32⟩
  | .local _ .vmem, ⟨4, _⟩ => ⟨S10000x384, .f32⟩
  | .local _ .vmem, ⟨5, _⟩ => ⟨S10000x384, .f32⟩
  | .local _ .vmem, ⟨6, _⟩ => ⟨S10000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![27], ![false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_9 : BitVec 32 := 0#32
  let v19 : BitVec 1 := Scalar.cmpi .ne v18 c0_i32_9
  v19

def k0_cond2 (i : grid0.Coords) : BitVec 1 :=
  let arg0 : BitVec 32 := BitVec.ofNat 32 (i 0).val
  let c0_i32_10 : BitVec 32 := 0#32
  let v20 : BitVec 1 := Scalar.cmpi .sgt arg0 c0_i32_10
  let c26_i32 : BitVec 32 := 26#32
  let v21 : BitVec 1 := Scalar.cmpi .slt arg0 c26_i32
  let v22 : BitVec 1 := Scalar.andi v20 v21
  let v23 : BitVec 32 := Scalar.extui v22
  let c0_i32_11 : BitVec 32 := 0#32
  let v24 : BitVec 1 := Scalar.cmpi .ne v23 c0_i32_11
  v24

def k0_cond3 (i : grid0.Coords) : BitVec 1 :=
  let arg0 : BitVec 32 := BitVec.ofNat 32 (i 0).val
  let c26_i32_12 : BitVec 32 := 26#32
  let v25 : BitVec 1 := Scalar.cmpi .eq arg0 c26_i32_12
  let v_true : BitVec 1 := 1#1
  let v26 : BitVec 1 := Scalar.andi v25 v_true
  let v27 : BitVec 32 := Scalar.extui v26
  let c0_i32_13 : BitVec 32 := 0#32
  let v28 : BitVec 1 := Scalar.cmpi .ne v27 c0_i32_13
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S10000x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  transposes_S256x256_S256x256_1_0 : S256x256.Transposes [1, 0] S256x256
  shapeCasts_S256_S1x256 : S256.ShapeCasts S1x256
  inb_S384x256_S384x256_0_0 : ∀ a, (![0, 0] : Fin 2 → Nat) a + S384x256.size a ≤ S384x256.size a
  h_S384x256 : 0 < S384x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S384x256 : S1x256.Broadcasts S384x256
  iota_S384x256_d0_w32 : S384x256.Iotas .tc 32 [0]
  inb_S10000x384_S10000x384_0_0 : ∀ a, (![0, 0] : Fin 2 → Nat) a + S10000x384.size a ≤ S10000x384.size a
  h_S10000x384 : 0 < S10000x384.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  dot_S384x256_S256x256_S384x256_1_0_0_1_n_n_wf : DotDims.WF S384x256 S256x256 S384x256 [1] [0] [0] [1] [] []
  dot_S10000x384_S384x256_S10000x256_1_0_0_1_n_n_wf : DotDims.WF S10000x384 S384x256 S10000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S384x256.size a < S10000x256.size a
  hwx0_0 : ∀ i : grid0.Coords, EltTy.bits .f32 = 32 ∨ (Rect.unit (s := S10000x256) (fun a => cc0_transform_0 i a * S384x256.size a) (fun a => (Pipeline.Clip.of (cc0_transform_0 i a) (S384x256.size a) (S10000x256.size a)).extent (S384x256.size a)) fun a => Pipeline.Clip.inb (Pipeline.Clip.ok_of (hstart0_0 i a))).WholeWords (EltTy.packing .f32)
  hwxs0_0 : ∀ i : grid0.Coords, EltTy.bits .f32 = 32 ∨ (Rect.unit (s := S384x256) (fun _ => 0) (fun a => (Pipeline.Clip.of (cc0_transform_0 i a) (S384x256.size a) (S10000x256.size a)).extent (S384x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S10000x384.size a < S10000x10000.size a
  hwx0_3 : ∀ i : grid0.Coords, EltTy.bits .f32 = 32 ∨ (Rect.unit (s := S10000x10000) (fun a => cc0_transform_3 i a * S10000x384.size a) (fun a => (Pipeline.Clip.of (cc0_transform_3 i a) (S10000x384.size a) (S10000x10000.size a)).extent (S10000x384.size a)) fun a => Pipeline.Clip.inb (Pipeline.Clip.ok_of (hstart0_3 i a))).WholeWords (EltTy.packing .f32)
  hwxs0_3 : ∀ i : grid0.Coords, EltTy.bits .f32 = 32 ∨ (Rect.unit (s := S10000x384) (fun _ => 0) (fun a => (Pipeline.Clip.of (cc0_transform_3 i a) (S10000x384.size a) (S10000x10000.size a)).extent (S10000x384.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10000x256.size a ≤ S10000x256.size a
  hwx0_4 : ∀ i : grid0.Coords, EltTy.bits .f32 = 32 ∨ (Rect.block (s := S10000x256) S10000x256.size (cc0_transform_4 i) (hinb0_4 i)).WholeWords (EltTy.packing .f32)

variable [Facts₀]

def dot_S384x256_S256x256_S384x256_1_0_0_1_n_n : DotDims S384x256 S256x256 S384x256 where
  lhsContracting := [1]
  rhsContracting := [0]
  lhsNonContracting := [0]
  rhsNonContracting := [1]
  lhsBatch := []
  rhsBatch := []
  wf := dot_S384x256_S256x256_S384x256_1_0_0_1_n_n_wf
def dot_S10000x384_S384x256_S10000x256_1_0_0_1_n_n : DotDims S10000x384 S384x256 S10000x256 where
  lhsContracting := [1]
  rhsContracting := [0]
  lhsNonContracting := [0]
  rhsNonContracting := [1]
  lhsBatch := []
  rhsBatch := []
  wf := dot_S10000x384_S384x256_S10000x256_1_0_0_1_n_n_wf

abbrev win0_0 : Pipeline.Window sig grid0 :=
  Pipeline.Window.ofSpecClip (Memref.whole main_arg0) S384x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_arg1) S10000x384.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpec (Memref.whole main_v2) S10000x256.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) && !(k0_cond3 i == 1#1) | ⟨_ + 5, h⟩ => absurd h (Nat.not_lt.2 (Nat.le_add_left _ _))

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S10000x256, .f32⟩
  | .hbm, ⟨6, _⟩ => ⟨S1x256, .f32⟩
  | .hbm, ⟨7, _⟩ => ⟨S10000x256, .f32⟩
  | .hbm, ⟨8, _⟩ => ⟨S10000x256, .f32⟩
  | .hbm, ⟨9, _⟩ => ⟨S10000x256, .f32⟩
  | .hbm, ⟨10, _⟩ => ⟨S_, .f32⟩
  | .hbm, ⟨11, _⟩ => ⟨S10000x256, .f32⟩
  | .hbm, ⟨12, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.KBody.lean ====
/-
  The kernel body's three runs, for every float instance.

  The body loads its four input buffers whole — 384 rows of x, the transposed weights, the bias row, 384 columns of the
  adjacency — and then, by the grid point, takes exactly one of three conditionals: at the first point it stores the
  partial product into the output buffer; at a middle point it loads the output buffer and stores its value plus the
  partial product; at the last point it stores the positive part of that sum. Each run leaves the inputs as found and
  the output buffer at the taken branch's value of what was loaded.
-/
import proofs.«139004_g26826365731398_cont_9to1_2211_11_alg».proof.Proof.Gen.Kernel.Frame
import proofs.«139004_g26826365731398_cont_9to1_2211_11_alg».proof.Proof.Gen.Kernel.Skeleton
import Idealize.ShloMosaic.Lib.Pipeline.Kit
import Idealize.ShloMosaic.Lib.Tactic
import Idealize.ShloMosaic.Lib.Pipeline.Value

noncomputable section

namespace Cert.Proof.KBody

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]
local notation "𝕄" => MT nD τ sig Unit (Elt F) ℕ (UR sig nD τ) ℕ

/-- The kernel calls nothing: no variants. -/
abbrev 𝒱₀ : Variants := Variants.none

/-- The whole-buffer rectangle's offsets are zero. -/
theorem off0 : (![0, 0] : Fin 2 → ℕ) = fun _ => 0 := funext fun a => by fin_cases a <;> rfl

/-- One store through the output buffer's whole rectangle covers every index. -/
theorem cover_out (w : Vec F S10000x256 .f32) (y : S10000x256.Idx) :
    ∃ pc ∈ ([⟨Rect.unit (s := S10000x256) ![0, 0] S10000x256.size inb_S10000x256_S10000x256_0_0, w⟩] :
      List (View.Piece (Elt F) S10000x256 .f32)), y ∈ pc.1.set :=
  View.cover_of_tiled _ S10000x256.size (by rfl) y

/-! ## The body's three runs

At a grid point exactly one of the body's three conditionals is taken. Each run reads the four input buffers whole,
and leaves the output buffer holding the taken branch's value of what it read; the inputs are left as found. -/

theorem sound_first (c : Dev nD) (i : grid0.Coords)
    (arg1 : Memref sig .tc .vmem S384x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S10000x384 .f32) (harg4 : arg4.IsWhole)
    (arg5 : Memref sig .tc .vmem S10000x256 .f32) (harg5 : arg5.IsWhole)
    (X0 : Vec F S384x256 .f32) (X1 : Vec F S256x256 .f32) (X2 : Vec F S1x256 .f32) (X3 : Vec F S10000x384 .f32) (Y : Vec F S10000x256 .f32)
    (h1 : k0_cond1 i = 1#1) (h2 : ¬k0_cond2 i = 1#1) (h3 : ¬k0_cond3 i = 1#1)
    (K : PUnit → sProp 𝕄) :
    iprop(owns (c : Thread nD τ) arg1 fullShare X0 ∗ owns (c : Thread nD τ) arg2 fullShare X1 ∗ owns (c : Thread nD τ) arg3 fullShare X2
        ∗ owns (c : Thread nD τ) arg4 fullShare X3 ∗ owns (c : Thread nD τ) arg5 fullShare Y
        ∗ (iprop(owns (c : Thread nD τ) arg1 fullShare X0 ∗ owns (c : Thread nD τ) arg2 fullShare X1 ∗ owns (c : Thread nD τ) arg3 fullShare X2
            ∗ owns (c : Thread nD τ) arg4 fullShare X3 ∗ owns (c : Thread nD τ) arg5 fullShare (k0_pay1 i X0 X1 X2 X3)) -∗ K ⟨⟩))
      ⊢ wp frame (wpE (defs₀ (F := F)) 𝒱₀ c none) Set.univ (cc0__gcn_kernel i arg1 harg1 arg2 harg2 arg3 harg3 arg4 harg4 arg5 harg5) K := by
  -- the printed body is its sequence of loads and stores over the named payloads; with the three
  -- conditions decided, the run is the four input loads, the taken branch's loads of the output
  -- buffer and its one store
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  sl_exec
  sl_step
  iapply Hk
  -- the inputs' buffers are untouched
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  -- the output buffer: one store through the whole rectangle, so it reads as the stored payload,
  -- whose operands are whole-rectangle loads, that is, the buffers' contents
  iexists _; isplitr
  swap; · iexact H5
  ipureintro
  rw [View.read_writes_eq_canon _ _ _ (cover_out _), View.canon_unit_zero off0]
  rw [View.readAt_eq_ld, View.readAt_eq_ld, View.readAt_eq_ld, View.readAt_eq_ld,
    View.ld_unit_zero (S := S384x256) off0, View.ld_unit_zero (S := S256x256) off0,
    View.ld_unit_zero (S := S1x256) off0, View.ld_unit_zero (S := S10000x384) off0]

theorem sound_mid (c : Dev nD) (i : grid0.Coords)
    (arg1 : Memref sig .tc .vmem S384x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S10000x384 .f32) (harg4 : arg4.IsWhole)
    (arg5 : Memref sig .tc .vmem S10000x256 .f32) (harg5 : arg5.IsWhole)
    (X0 : Vec F S384x256 .f32) (X1 : Vec F S256x256 .f32) (X2 : Vec F S1x256 .f32) (X3 : Vec F S10000x384 .f32) (Y : Vec F S10000x256 .f32)
    (h1 : ¬k0_cond1 i = 1#1) (h2 : k0_cond2 i = 1#1) (h3 : ¬k0_cond3 i = 1#1)
    (K : PUnit → sProp 𝕄) :
    iprop(owns (c : Thread nD τ) arg1 fullShare X0 ∗ owns (c : Thread nD τ) arg2 fullShare X1 ∗ owns (c : Thread nD τ) arg3 fullShare X2
        ∗ owns (c : Thread nD τ) arg4 fullShare X3 ∗ owns (c : Thread nD τ) arg5 fullShare Y
        ∗ (iprop(owns (c : Thread nD τ) arg1 fullShare X0 ∗ owns (c : Thread nD τ) arg2 fullShare X1 ∗ owns (c : Thread nD τ) arg3 fullShare X2
            ∗ owns (c : Thread nD τ) arg4 fullShare X3 ∗ owns (c : Thread nD τ) arg5 fullShare (k0_pay2 i X0 X1 X2 X3 Y)) -∗ K ⟨⟩))
      ⊢ wp frame (wpE (defs₀ (F := F)) 𝒱₀ c none) Set.univ (cc0__gcn_kernel i arg1 harg1 arg2 harg2 arg3 harg3 arg4 harg4 arg5 harg5) K := by
  -- the printed body is its sequence of loads and stores over the named payloads; with the three
  -- conditions decided, the run is the four input loads, the taken branch's loads of the output
  -- buffer and its one store
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  sl_exec
  sl_step
  iapply Hk
  -- the inputs' buffers are untouched
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  -- the output buffer: one store through the whole rectangle, so it reads as the stored payload,
  -- whose operands are whole-rectangle loads, that is, the buffers' contents
  iexists _; isplitr
  swap; · iexact H5
  ipureintro
  rw [View.read_writes_eq_canon _ _ _ (cover_out _), View.canon_unit_zero off0]
  rw [View.readAt_eq_ld, View.readAt_eq_ld, View.readAt_eq_ld, View.readAt_eq_ld, View.readAt_eq_ld,
    View.ld_unit_zero (S := S384x256) off0, View.ld_unit_zero (S := S256x256) off0,
    View.ld_unit_zero (S := S1x256) off0, View.ld_unit_zero (S := S10000x384) off0,
    View.ld_unit_zero (S := S10000x256) off0]

theorem sound_last (c : Dev nD) (i : grid0.Coords)
    (arg1 : Memref sig .tc .vmem S384x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S10000x384 .f32) (harg4 : arg4.IsWhole)
    (arg5 : Memref sig .tc .vmem S10000x256 .f32) (harg5 : arg5.IsWhole)
    (X0 : Vec F S384x256 .f32) (X1 : Vec F S256x256 .f32) (X2 : Vec F S1x256 .f32) (X3 : Vec F S10000x384 .f32) (Y : Vec F S10000x256 .f32)
    (h1 : ¬k0_cond1 i = 1#1) (h2 : ¬k0_cond2 i = 1#1) (h3 : k0_cond3 i = 1#1)
    (K : PUnit → sProp 𝕄) :
    iprop(owns (c : Thread nD τ) arg1 fullShare X0 ∗ owns (c : Thread nD τ) arg2 fullShare X1 ∗ owns (c : Thread nD τ) arg3 fullShare X2
        ∗ owns (c : Thread nD τ) arg4 fullShare X3 ∗ owns (c : Thread nD τ) arg5 fullShare Y
        ∗ (iprop(owns (c : Thread nD τ) arg1 fullShare X0 ∗ owns (c : Thread nD τ) arg2 fullShare X1 ∗ owns (c : Thread nD τ) arg3 fullShare X2
            ∗ owns (c : Thread nD τ) arg4 fullShare X3 ∗ owns (c : Thread nD τ) arg5 fullShare (k0_pay3 i X0 X1 X2 X3 Y)) -∗ K ⟨⟩))
      ⊢ wp frame (wpE (defs₀ (F := F)) 𝒱₀ c none) Set.univ (cc0__gcn_kernel i arg1 harg1 arg2 harg2 arg3 harg3 arg4 harg4 arg5 harg5) K := by
  -- the printed body is its sequence of loads and stores over the named payloads; with the three
  -- conditions decided, the run is the four input loads, the taken branch's loads of the output
  -- buffer and its one store
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  sl_exec
  sl_step
  iapply Hk
  -- the inputs' buffers are untouched
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  -- the output buffer: one store through the whole rectangle, so it reads as the stored payload,
  -- whose operands are whole-rectangle loads, that is, the buffers' contents
  iexists _; isplitr
  swap; · iexact H5
  ipureintro
  rw [View.read_writes_eq_canon _ _ _ (cover_out _), View.canon_unit_zero off0]
  rw [View.readAt_eq_ld, View.readAt_eq_ld, View.readAt_eq_ld, View.readAt_eq_ld, View.readAt_eq_ld,
    View.ld_unit_zero (S := S384x256) off0, View.ld_unit_zero (S := S256x256) off0,
    View.ld_unit_zero (S := S1x256) off0, View.ld_unit_zero (S := S10000x384) off0,
    View.ld_unit_zero (S := S10000x256) off0]

end Cert.Proof.KBody

end
-- ==== Proof.KFrame.lean ====
import proofs.«139004_g26826365731398_cont_9to1_2211_11_alg».proof.Proof.KBody
import proofs.«139004_g26826365731398_cont_9to1_2211_11_alg».proof.Proof.Gen.Kernel.Frame
import Idealize.ShloMosaic.Lib.Pipeline.Frame
import Idealize.ShloMosaic.Lib.Pipeline.Kit
import Idealize.ShloMosaic.Lib.Tactic

noncomputable section

namespace Cert.Proof.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf ΦA)
open Cert.Proof.KBody (𝒱₀)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data: relations that say nothing of contents

Two input windows are cut at their arrays' ends, so the tails of their staging buffers hold words nothing names,
and the block product carries them into the output buffer. The frame reads no window's contents: each window's
relation between what the body is handed and what it leaves holds of any two contents. -/

/-- The arrays as the region finds them; of what the body leaves in a staging buffer, nothing; the invariant the
    scoped rest and the generator register; nothing owed; full shares. -/
def rdats (c : Dev nD) : RDat τ (Elt F) Unit ℕ (UR sig nD τ) ℕ cfg0 c where
  A w := V m c (Pipeline.arrRef spec0 w)
  after _ _ _ _ := True
  Φ _ := ΦA spec0 c
  q _ := fullShare
  owed _ := 0

/-! ## Which conditional a grid point takes -/

/-- At each of the grid's points exactly one of the body's three conditions holds: the first at the first point,
    the third at the last, the second in between. -/
theorem cond_cases : ∀ t : Fin grid0.N,
    (k0_cond1 (grid0.coords t) = 1#1 ∧ ¬k0_cond2 (grid0.coords t) = 1#1 ∧ ¬k0_cond3 (grid0.coords t) = 1#1)
    ∨ (¬k0_cond1 (grid0.coords t) = 1#1 ∧ k0_cond2 (grid0.coords t) = 1#1 ∧ ¬k0_cond3 (grid0.coords t) = 1#1)
    ∨ (¬k0_cond1 (grid0.coords t) = 1#1 ∧ ¬k0_cond2 (grid0.coords t) = 1#1 ∧ k0_cond3 (grid0.coords t) = 1#1) := by
  decide +kernel

/-! ## The body at a grid point -/

/-- The body at point `t`, on the windows' current staging memrefs at any contents, runs to the continuation with
    the four input buffers as handed and the output's buffer at some contents: at each point one of the three
    runs of the body applies, and what the taken branch stores is not named. -/
theorem sound_point (c : Dev nD) (t : Fin cfg0.N)
    (Y0 : Vec F S384x256 .f32) (Y1 : Vec F S256x256 .f32) (Y2 : Vec F S1x256 .f32) (Y3 : Vec F S10000x384 .f32)
    (Y4 : Vec F S10000x256 .f32) (K : PUnit → sProp 𝕄) :
    iprop(owns (c : Thread nD τ) (st0_0 t) fullShare Y0 ∗ owns (c : Thread nD τ) (st0_1 t) fullShare Y1
        ∗ owns (c : Thread nD τ) (st0_2 t) fullShare Y2 ∗ owns (c : Thread nD τ) (st0_3 t) fullShare Y3
        ∗ owns (c : Thread nD τ) (st0_4 t) fullShare Y4
        ∗ (iprop(owns (c : Thread nD τ) (st0_0 t) fullShare Y0 ∗ owns (c : Thread nD τ) (st0_1 t) fullShare Y1
            ∗ owns (c : Thread nD τ) (st0_2 t) fullShare Y2 ∗ owns (c : Thread nD τ) (st0_3 t) fullShare Y3
            ∗ (∃ X, owns (c : Thread nD τ) (st0_4 t) fullShare X)) -∗ K ⟨⟩))
      ⊢ wp frame (wpE (defs₀ (F := F)) 𝒱₀ c none) Set.univ (bodyAt0 t) K := by
  iintro ⟨H0, H1, H2, H3, H4, Hk⟩
  rcases cond_cases t with ⟨h1, h2, h3⟩ | ⟨h1, h2, h3⟩ | ⟨h1, h2, h3⟩
  · iapply (KBody.sound_first (F := F) c (grid0.coords t) _ _ _ _ _ _ _ _ _ _ Y0 Y1 Y2 Y3 Y4 h1 h2 h3 K)
    isplitl [H0]; · iexact H0
    isplitl [H1]; · iexact H1
    isplitl [H2]; · iexact H2
    isplitl [H3]; · iexact H3
    isplitl [H4]; · iexact H4
    iintro ⟨H0, H1, H2, H3, H4⟩
    iapply Hk
    isplitl [H0]; · iexact H0
    isplitl [H1]; · iexact H1
    isplitl [H2]; · iexact H2
    isplitl [H3]; · iexact H3
    iexists _; iexact H4
  · iapply (KBody.sound_mid (F := F) c (grid0.coords t) _ _ _ _ _ _ _ _ _ _ Y0 Y1 Y2 Y3 Y4 h1 h2 h3 K)
    isplitl [H0]; · iexact H0
    isplitl [H1]; · iexact H1
    isplitl [H2]; · iexact H2
    isplitl [H3]; · iexact H3
    isplitl [H4]; · iexact H4
    iintro ⟨H0, H1, H2, H3, H4⟩
    iapply Hk
    isplitl [H0]; · iexact H0
    isplitl [H1]; · iexact H1
    isplitl [H2]; · iexact H2
    isplitl [H3]; · iexact H3
    iexists _; iexact H4
  · iapply (KBody.sound_last (F := F) c (grid0.coords t) _ _ _ _ _ _ _ _ _ _ Y0 Y1 Y2 Y3 Y4 h1 h2 h3 K)
    isplitl [H0]; · iexact H0
    isplitl [H1]; · iexact H1
    isplitl [H2]; · iexact H2
    isplitl [H3]; · iexact H3
    isplitl [H4]; · iexact H4
    iintro ⟨H0, H1, H2, H3, H4⟩
    iapply Hk
    isplitl [H0]; · iexact H0
    isplitl [H1]; · iexact H1
    isplitl [H2]; · iexact H2
    isplitl [H3]; · iexact H3
    iexists _; iexact H4

/-! ## The body obligation -/

/-- The library's body obligation of the relational data, at every point: the invariant and what the core owes pass
    through unread, each input's buffer is handed back as it was handed over and the output's at what the taken
    branch stored; of none of them is anything asked. -/
theorem body_obligation (c : Dev nD) : (rdats m c).BodyObligation (defs₀ (F := F)) 𝒱₀ () Set.univ := fun t Y _ => by
  rw [bigSep_W0, bigSep_W0]
  show iprop((rdats m c).Φ t.castSucc ∗ (rdats m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3)
        ∗ owns (c : Thread nD τ) (st0_4 t) fullShare (Y 4))
      ⊢ wp frame (wpE (defs₀ (F := F)) 𝒱₀ c none) Set.univ (bodyAt0 t) _
  rw [show (rdats m c).Φ t.succ = (rdats m c).Φ t.castSucc from rfl,
    show (rdats m c).owesAt () t.succ = (rdats m c).owesAt () t.castSucc from rfl]
  iintro ⟨HΦ, Ho, H0, H1, H2, H3, H4⟩
  iapply (sound_point (F := F) c t (Y 0) (Y 1) (Y 2) (Y 3) (Y 4) _)
  isplitl [H0]; · iexact H0
  isplitl [H1]; · iexact H1
  isplitl [H2]; · iexact H2
  isplitl [H3]; · iexact H3
  isplitl [H4]; · iexact H4
  iintro ⟨H0, H1, H2, H3, ⟨%X, H4⟩⟩
  isplitl [HΦ]; · iexact HΦ
  isplitl [Ho]; · iexact Ho
  isplitl [H0]
  · iexists Y 0; isplitr; · ipureintro; trivial
    iexact H0
  isplitl [H1]
  · iexists Y 1; isplitr; · ipureintro; trivial
    iexact H1
  isplitl [H2]
  · iexists Y 2; isplitr; · ipureintro; trivial
    iexact H2
  isplitl [H3]
  · iexists Y 3; isplitr; · ipureintro; trivial
    iexact H3
  · iexists X; isplitr; · ipureintro; trivial
    iexact H4

/-- Every array is held at the full share. -/
theorem share_full (c : Dev nD) (w : Fin cfg0.W) : (rdats m c).share w = fullShare := by
  unfold RDat.share; split <;> rfl

/-! ## The run and the frame -/

set_option backward.isDefEq.respectTransparency.types false in
/-- At the compiled mesh, for any values, from any memory with zero counters: every weakly fair execution of @main on
    the TensorCores terminates, and in every final state each windowed array holds some contents it may hold after
    the write-backs (an input, its contents at the region's entry) and every other unscoped buffer what the region
    found there. -/
theorem run_main : θ_run defs (onTc (τ := τ) (main (F := F))) (s₀ m ρ) (Pipeline.RDat.FramePost cfg0 (rdats m) (V m)) :=
  Pipeline.RDat.θ_run_frame cfgs (0 : Fin 1) launch0 defs₀ 𝒱₀ (rdats m) m ρ main
    (hbody := body_obligation m) (hshare := share_full m) (howed := fun _ _ => rfl)
    (V := V m) (hmain := hmain m 𝒱₀) (hA := fun _ _ => rfl) (hΦ := fun _ _ => rfl)

/-- THE FRAME: the four argument arrays end as launched. The two staged inputs end at their entry contents (an
    input window's array is never written), the two the region does not stage are among the buffers it leaves
    alone; none is written by the host operations before the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Pipeline.RDat.FramePost.arr_in h c 0 rfl).trans (V_main_arg0 m c),
      (Pipeline.RDat.FramePost.arr_in h c 3 rfl).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.Proof.KFrame

end
-- ==== Proof.Spec.lean ====
/-
  The graph-convolution layer as one function of its four arrays, index by index over the extended reals, and the
  same value accumulated the way a kernel that walks the adjacency's columns in blocks of 384 accumulates it.

  * `hid x W b j c`: entry (j, c) of the hidden features, the row x[j, ·] against the row W[c, ·], plus the bias b[c];
  * `G x adj W b`: entry (r, c) of the layer, the positive part of the sum over j of adj[r, j] · hid[j, c];
  * `blk f k`: the part of a sum over j < 10000 that falls in columns 384k … 384k + 383 (the last block, k = 26, has
    only 16 columns inside the array: past the end a term counts as zero);
  * `accSum f n`: blocks 0 … n added in order, ((blk 0 + blk 1) + …) + blk n;
  * `sum_blocks`: all 27 blocks together are the whole sum (addition of extended reals is commutative and
    associative, and the 27 blocks of 384 cover 0 … 9999 once);
  * `accOut`: what the walk holds after block n — the running sum, and after the last block its positive part —
    which after block 26 is `G`.
-/
import Idealize.ShloMosaic.Lib.ValueIdx
import Mathlib.Algebra.BigOperators.Fin
import Mathlib.Algebra.BigOperators.Intervals

noncomputable section

open scoped BigOperators

namespace Cert.Proof.Spec

open Idealize.ShloMosaic Idealize.ShloMosaic.ValueIdx

abbrev SX : Shape := ⟨2, ![10000, 256]⟩
abbrev SA : Shape := ⟨2, ![10000, 10000]⟩
abbrev SW : Shape := ⟨2, ![256, 256]⟩
abbrev SB : Shape := ⟨1, ![256]⟩

/-- Entry (j, c) of the hidden features: x[j, ·] · W[c, ·] + b[c]. -/
def hid (x : SX.Idx → EReal) (W : SW.Idx → EReal) (b : SB.Idx → EReal) (j : Fin 10000) (c : Fin 256) : EReal :=
  (∑ d : Fin 256, x (ix2 j d) * W (ix2 c d)) + b (ix1 c)

/-- The j-th term of entry (r, c) of adj · hid. -/
def term (x : SX.Idx → EReal) (adj : SA.Idx → EReal) (W : SW.Idx → EReal) (b : SB.Idx → EReal) (r : Fin 10000) (c : Fin 256)
    (j : Fin 10000) : EReal :=
  adj (ix2 r j) * hid x W b j c

/-- The layer: the positive part of adj · hid. -/
def G (x : SX.Idx → EReal) (adj : SA.Idx → EReal) (W : SW.Idx → EReal) (b : SB.Idx → EReal) : SX.Idx → EReal :=
  fun i => max (∑ j : Fin 10000, term x adj W b (i 0) (i 1) j) 0

/-- The terms of a sum over j < 10000 that fall in column block k (384 wide), a term past the end counted as zero. -/
def blk (f : Fin 10000 → EReal) (k : ℕ) : EReal :=
  ∑ jj : Fin 384, if h : 384 * k + jj.val < 10000 then f ⟨384 * k + jj.val, h⟩ else 0

/-- Blocks 0 … n added in order. -/
def accSum (f : Fin 10000 → EReal) : ℕ → EReal
  | 0 => blk f 0
  | n + 1 => accSum f n + blk f (n + 1)

/-- A function on the indices below 10000 continued by zero to every natural number. -/
private def extZero (f : Fin 10000 → EReal) (i : ℕ) : EReal :=
  if h : i < 10000 then f ⟨i, h⟩ else 0

/-- A block is the sum of the continued function over the 384 naturals from 384k on. -/
private theorem blk_eq_range (f : Fin 10000 → EReal) (k : ℕ) :
    blk f k = ∑ jj ∈ Finset.range 384, extZero f (384 * k + jj) := by
  unfold blk
  exact Fin.sum_univ_eq_sum_range (fun jj => extZero f (384 * k + jj)) 384

/-- Adding the blocks in order is the sum of the blocks 0 … n. -/
private theorem accSum_eq_range (f : Fin 10000 → EReal) (n : ℕ) :
    accSum f n = ∑ k ∈ Finset.range (n + 1), blk f k := by
  induction n with
  | zero => simp [accSum]
  | succ n ih => rw [accSum, ih, Finset.sum_range_succ _ (n + 1)]

/-- The sum over m consecutive stretches of length n is the sum over the first n · m naturals. -/
private theorem sum_range_blocks (g : ℕ → EReal) (n m : ℕ) :
    ∑ k ∈ Finset.range m, ∑ jj ∈ Finset.range n, g (n * k + jj) = ∑ i ∈ Finset.range (n * m), g i := by
  induction m with
  | zero => simp
  | succ m ih => rw [Finset.sum_range_succ, ih, Nat.mul_succ, Finset.sum_range_add]

/-- The whole sum is the sum of the continued function over the first 384 · 27 = 10000 + 368 naturals: the 368 terms
    past the end are zero. -/
private theorem sum_univ_eq_extZero (f : Fin 10000 → EReal) :
    ∑ j : Fin 10000, f j = ∑ i ∈ Finset.range (384 * 27), extZero f i := by
  have h1 : ∑ j : Fin 10000, f j = ∑ j : Fin 10000, extZero f j.val :=
    Finset.sum_congr rfl fun j _ => by simp [extZero, j.isLt]
  have h2 : (384 * 27 : ℕ) = 10000 + 368 := by norm_num
  rw [h1, Fin.sum_univ_eq_sum_range (extZero f) 10000, h2, Finset.sum_range_add]
  have h3 : ∑ x ∈ Finset.range 368, extZero f (10000 + x) = 0 :=
    Finset.sum_eq_zero fun x _ => by simp [extZero]
  rw [h3, add_zero]

/-- The 27 blocks together are the whole sum. -/
theorem sum_blocks (f : Fin 10000 → EReal) : accSum f 26 = ∑ j : Fin 10000, f j := by
  rw [accSum_eq_range, sum_univ_eq_extZero, ← sum_range_blocks]
  exact Finset.sum_congr rfl fun k _ => blk_eq_range f k

/-- What the walk over the column blocks holds after block n: the running sum, and after the last block its
    positive part. -/
def accOut (x : SX.Idx → EReal) (adj : SA.Idx → EReal) (W : SW.Idx → EReal) (b : SB.Idx → EReal) (n : ℕ) : SX.Idx → EReal :=
  fun i => if n < 26 then accSum (term x adj W b (i 0) (i 1)) n else max (accSum (term x adj W b (i 0) (i 1)) n) 0

/-- After the last block the walk holds the layer. -/
theorem accOut_last (x : SX.Idx → EReal) (adj : SA.Idx → EReal) (W : SW.Idx → EReal) (b : SB.Idx → EReal) :
    accOut x adj W b 26 = G x adj W b := by
  funext i
  unfold accOut G
  rw [if_neg (by decide), sum_blocks]

end Cert.Proof.Spec

end
-- ==== Proof.IData.lean ====
/-
  The proof data of the idealized kernel's one pipeline, over the extended reals.

  The grid walks the adjacency's columns in 27 blocks of 384; the last block has 16 columns inside the array. Point 0
  stores its partial product into the resident output block, points 1 … 25 add theirs to it, point 26 adds its own and
  takes the positive part; the block is written back once, after point 26. The x and adjacency windows' last blocks
  overhang their arrays: a buffer's part past the array's end holds values nothing names, so what those buffers hold
  after the body is stated with a filler of zeros that nothing reads. The output buffer after point n holds the
  specification's running sum `Spec.accOut … n`.
-/
import proofs.«139004_g26826365731398_cont_9to1_2211_11_alg».proof.Proof.Gen.KernelIdeal.Frame
import proofs.«139004_g26826365731398_cont_9to1_2211_11_alg».proof.Proof.Gen.KernelIdeal.Points
import proofs.«139004_g26826365731398_cont_9to1_2211_11_alg».proof.Proof.Spec
import Idealize.ShloMosaic.Lib.Pipeline.Kit
import Idealize.ShloMosaic.Lib.Pipeline.Value
import Idealize.ShloMosaic.Lib.ValueIdx

set_option maxRecDepth 16384

noncomputable section

open scoped BigOperators

namespace Cert.Proof.IRun

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.Sem
open Idealize.ShloMosaic.Pipeline (Dat Cfg Window ΦA)

/-! ## Where each conditional is taken, and what the clipped windows move -/

/-- Point 0 takes the first conditional, points 1 … 25 the second, point 26 the third, and no point two of them. -/
theorem point_cases : ∀ t : Fin grid0.N,
    (t.val = 0 ∧ k0_cond1 (grid0.coords t) = 1#1 ∧ ¬k0_cond2 (grid0.coords t) = 1#1 ∧ ¬k0_cond3 (grid0.coords t) = 1#1)
    ∨ (0 < t.val ∧ t.val < 26 ∧ ¬k0_cond1 (grid0.coords t) = 1#1 ∧ k0_cond2 (grid0.coords t) = 1#1 ∧ ¬k0_cond3 (grid0.coords t) = 1#1)
    ∨ (t.val = 26 ∧ ¬k0_cond1 (grid0.coords t) = 1#1 ∧ ¬k0_cond2 (grid0.coords t) = 1#1 ∧ k0_cond3 (grid0.coords t) = 1#1) := by
  decide +kernel

/-- So the body stores into the output buffer at every point. -/
theorem idle4 : ∀ t : Fin cfg0.N, cfg0.idle 4 (cfg0.grid.coords t) = false := by
  decide +kernel

theorem idle4_all : ∀ i : cfg0.grid.Coords, cfg0.idle 4 i = false := by
  decide +kernel

/-- The one grid coordinate is the point's number. -/
theorem coord0 : ∀ t : Fin grid0.N, (grid0.coords t 0).val = t.val := by decide +kernel

/-- Block t of x is rows 384t …, cut at row 10000; all 256 columns. -/
theorem xsize0_0 : ∀ t : Fin grid0.N, win0_0.xsize (grid0.coords t) 0 = min 384 (10000 - 384 * t.val) := by decide +kernel
theorem xsize0_1 : ∀ t : Fin grid0.N, win0_0.xsize (grid0.coords t) 1 = 256 := by decide +kernel
/-- Block t of the adjacency is all 10000 rows; columns 384t …, cut at column 10000. -/
theorem xsize3_0 : ∀ t : Fin grid0.N, win0_3.xsize (grid0.coords t) 0 = 10000 := by decide +kernel
theorem xsize3_1 : ∀ t : Fin grid0.N, win0_3.xsize (grid0.coords t) 1 = min 384 (10000 - 384 * t.val) := by decide +kernel
theorem index0 : ∀ t : Fin grid0.N, win0_0.index t 0 = t.val ∧ win0_0.index t 1 = 0 := by decide +kernel
theorem index3 : ∀ t : Fin grid0.N, win0_3.index t 0 = 0 ∧ win0_3.index t 1 = t.val := by decide +kernel

variable (m : (ℓ : Loc nD τ sig) → Buf (Elt Ideal) ℓ) (ρ : Dev nD → PrngReg)

/-! ## The proof data -/

/-- The four arrays as launched. -/
abbrev xA (c : Dev nD) : Spec.SX.Idx → EReal := m ((c : Thread nD τ).loc main_arg0)
abbrev adjA (c : Dev nD) : Spec.SA.Idx → EReal := m ((c : Thread nD τ).loc main_arg1)
abbrev wA (c : Dev nD) : Spec.SW.Idx → EReal := m ((c : Thread nD τ).loc main_arg2)
abbrev bA (c : Dev nD) : Spec.SB.Idx → EReal := m ((c : Thread nD τ).loc main_arg3)

/-- What the output buffer holds after point n: the running sum of the column blocks 0 … n of adj · hid, and after the
    last block its positive part. -/
def accV (c : Dev nD) (n : ℕ) : FVec Ideal S10000x256 .f32 := Spec.accOut (xA m c) (adjA m c) (wA m c) (bA m c) n

/-- A block of x filled out to 384 rows with zeros (only the last block is short; nothing reads the filler). -/
def xfill (c : Dev nD) (t : Fin cfg0.N) : FVec Ideal S384x256 .f32 :=
  win0_0.fill (grid0.coords t) (fun _ => (0 : EReal)) (iblk m c 0 t)
/-- A block of the adjacency filled out to 384 columns with zeros. -/
def afill (c : Dev nD) (t : Fin cfg0.N) : FVec Ideal S10000x384 .f32 :=
  win0_3.fill (grid0.coords t) (fun _ => (0 : EReal)) (iblk m c 3 t)

/-- The proof data on core c: the arrays as the region finds them; after the body each input buffer at its block (a
    clipped one filled out with zeros), the output buffer at the running sum; the region's own invariant; nothing owed. -/
def dats (_ : Fin 1) (c : Dev nD) : Dat τ (Elt Ideal) Unit ℕ (UR sig nD τ) ℕ cfg0 c where
  A w := V m c (Pipeline.arrRef spec0 w)
  after w t := match w with
    | ⟨0, _⟩ => xfill m c t
    | ⟨1, _⟩ => iblk m c 1 t
    | ⟨2, _⟩ => iblk m c 2 t
    | ⟨3, _⟩ => afill m c t
    | ⟨4, _⟩ => accV m c t.val
  Φ _ := ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = xfill m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = afill m c t := by dsimp only [dats]
theorem after0_4 (c : Dev nD) (t : Fin cfg0.N) : (dats m 0 c).after 4 t = accV m c t.val := by dsimp only [dats]

/-! ## What the body finds in each buffer -/

/-- The clipped windows are fetched at every point: the buffer holds the block on the part inside the array and
    anything past it. -/
theorem before0_0 (c : Dev nD) (t : Fin cfg0.N) (d) :
    (dats m 0 c).before 0 t d = win0_0.fill (grid0.coords t) d (iblk m c 0 t) := by
  rw [Dat.before_fetched _ 0 t (fetch0_0 t)]; rfl
theorem before0_3 (c : Dev nD) (t : Fin cfg0.N) (d) :
    (dats m 0 c).before 3 t d = win0_3.fill (grid0.coords t) d (iblk m c 3 t) := by
  rw [Dat.before_fetched _ 3 t (fetch0_3 t)]; rfl
/-- The weights and the bias are fetched once and left in place. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- The output buffer is fresh at point 0 and afterwards holds what the point before left (it is written back only
    after the last point). -/
theorem before0_4_zero (c : Dev nD) (t : Fin cfg0.N) (ht : t.val = 0) (d) : (dats m 0 c).before 4 t d = d :=
  Dat.before_out_reset _ 4 rfl t (.inl ht) d
theorem before0_4_succ (c : Dev nD) (t : Fin cfg0.N) (ht : t.val ≠ 0) (d) :
    (dats m 0 c).before 4 t d = accV m c (t.val - 1) := by
  rw [Dat.before_out_kept _ 4 rfl t ht
    (by
      have h := flush0_4 ⟨t.val - 1, Nat.lt_of_le_of_lt (Nat.sub_le _ _) t.isLt⟩
      have ht' : t.val < 27 := t.isLt
      cases hf : (cfg0.win 4).flush ⟨t.val - 1, Nat.lt_of_le_of_lt (Nat.sub_le _ _) t.isLt⟩
      · rfl
      · have := h.mp hf; simp only at this; omega)
    idle4_all
    (fun _ _ => rfl) d]
  exact after0_4 m c _

end Cert.Proof.IRun

end
-- ==== Proof.IPayload.lean ====
/-
  The body's matrix product read at an index, over the extended reals: from the buffers' contents `X0` (384 rows of
  x), `X1` (the transposed weights), `X2` (the bias row) and `X3` (384 columns of the adjacency) at grid point `k`,
  entry (r, c) of the partial product is the sum over the block's 384 columns jj of X3[r, jj] times the masked hidden
  row: (X0[jj, ·] · X1[·, c] + X2[0, c]) where column 384k + jj is inside the array, and zero past its end.
-/
import proofs.«139004_g26826365731398_cont_9to1_2211_11_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Proof.IPayload

open Cert.KernelIdeal Cert.KernelIdeal.Gen
open Idealize.ShloMosaic Idealize.ShloMosaic.ValueIdx

/-! ## The first product: rows of x against the transposed weights -/

/-- The left operand's row coordinate is the output's row. -/
theorem lhs_mm1_0 (i : S384x256.Idx) (q : dot_S384x256_S256x256_S384x256_1_0_0_1_n_n.contr.Idx) :
    (dot_S384x256_S256x256_S384x256_1_0_0_1_n_n.lhsIdx i q 0).val = (i 0).val := by
  unfold DotDims.lhsIdx
  rw [dif_neg (show ¬(0 : Fin S384x256.rank) ∈ dot_S384x256_S256x256_S384x256_1_0_0_1_n_n.lhsBatch by decide), dif_pos (show (0 : Fin S384x256.rank) ∈ dot_S384x256_S256x256_S384x256_1_0_0_1_n_n.lhsNonContracting by decide)]
  rfl
/-- The left operand's column coordinate is the contraction index. -/
theorem lhs_mm1_1 (i : S384x256.Idx) (q : dot_S384x256_S256x256_S384x256_1_0_0_1_n_n.contr.Idx) :
    (dot_S384x256_S256x256_S384x256_1_0_0_1_n_n.lhsIdx i q 1).val = (q ⟨0, by decide⟩).val :=
  dot_S384x256_S256x256_S384x256_1_0_0_1_n_n.lhsIdx_val_of_single rfl i q
/-- The right operand's row coordinate is the contraction index. -/
theorem rhs_mm1_0 (i : S384x256.Idx) (q : dot_S384x256_S256x256_S384x256_1_0_0_1_n_n.contr.Idx) :
    (dot_S384x256_S256x256_S384x256_1_0_0_1_n_n.rhsIdx i q 0).val = (q ⟨0, by decide⟩).val :=
  dot_S384x256_S256x256_S384x256_1_0_0_1_n_n.rhsIdx_val_of_single rfl i q
/-- The right operand's column coordinate is the output's column. -/
theorem rhs_mm1_1 (i : S384x256.Idx) (q : dot_S384x256_S256x256_S384x256_1_0_0_1_n_n.contr.Idx) :
    (dot_S384x256_S256x256_S384x256_1_0_0_1_n_n.rhsIdx i q 1).val = (i 1).val := by
  unfold DotDims.rhsIdx
  rw [dif_neg (show ¬(1 : Fin S256x256.rank) ∈ dot_S384x256_S256x256_S384x256_1_0_0_1_n_n.rhsBatch by decide), dif_pos (show (1 : Fin S256x256.rank) ∈ dot_S384x256_S256x256_S384x256_1_0_0_1_n_n.rhsNonContracting by decide)]
  rfl

/-- Into the zero accumulator the product at (a, b) is the sum over d of A[a, d] · B[d, b]. -/
theorem mm1_apply (A : FVec Ideal S384x256 .f32) (B : FVec Ideal S256x256 .f32) (a : Fin 384) (b : Fin 256) :
    matmul dot_S384x256_S256x256_S384x256_1_0_0_1_n_n none A B (constant S384x256 .f32 0x00000000#32) (ix2 a b)
      = ∑ d : Fin 256, A (ix2 a d) * B (ix2 d b) := by
  simp only [matmul]
  rw [Ideal.matmul_constant_zero_apply, ← Equiv.sum_comp (ValueIdx.contrEquiv1 dot_S384x256_S256x256_S384x256_1_0_0_1_n_n 256 rfl rfl).symm]
  refine Finset.sum_congr rfl fun k _ => ?_
  have hk := ValueIdx.contrEquiv1_symm_val dot_S384x256_S256x256_S384x256_1_0_0_1_n_n 256 rfl rfl k
  have el : dot_S384x256_S256x256_S384x256_1_0_0_1_n_n.lhsIdx (ix2 a b) ((ValueIdx.contrEquiv1 dot_S384x256_S256x256_S384x256_1_0_0_1_n_n 256 rfl rfl).symm k) = ix2 a k := funext fun ax => Fin.ext (by
    match ax with
    | ⟨0, _⟩ => exact lhs_mm1_0 _ _
    | ⟨1, _⟩ => exact (lhs_mm1_1 _ _).trans hk)
  have er : dot_S384x256_S256x256_S384x256_1_0_0_1_n_n.rhsIdx (ix2 a b) ((ValueIdx.contrEquiv1 dot_S384x256_S256x256_S384x256_1_0_0_1_n_n 256 rfl rfl).symm k) = ix2 k b := funext fun ax => Fin.ext (by
    match ax with
    | ⟨0, _⟩ => exact (rhs_mm1_0 _ _).trans hk
    | ⟨1, _⟩ => exact rhs_mm1_1 _ _)
  rw [el, er]

/-! ## The second product: the adjacency block's rows against the masked hidden rows -/

/-- The left operand's row coordinate is the output's row. -/
theorem lhs_mm2_0 (i : S10000x256.Idx) (q : dot_S10000x384_S384x256_S10000x256_1_0_0_1_n_n.contr.Idx) :
    (dot_S10000x384_S384x256_S10000x256_1_0_0_1_n_n.lhsIdx i q 0).val = (i 0).val := by
  unfold DotDims.lhsIdx
  rw [dif_neg (show ¬(0 : Fin S10000x384.rank) ∈ dot_S10000x384_S384x256_S10000x256_1_0_0_1_n_n.lhsBatch by decide), dif_pos (show (0 : Fin S10000x384.rank) ∈ dot_S10000x384_S384x256_S10000x256_1_0_0_1_n_n.lhsNonContracting by decide)]
  rfl
/-- The left operand's column coordinate is the contraction index. -/
theorem lhs_mm2_1 (i : S10000x256.Idx) (q : dot_S10000x384_S384x256_S10000x256_1_0_0_1_n_n.contr.Idx) :
    (dot_S10000x384_S384x256_S10000x256_1_0_0_1_n_n.lhsIdx i q 1).val = (q ⟨0, by decide⟩).val :=
  dot_S10000x384_S384x256_S10000x256_1_0_0_1_n_n.lhsIdx_val_of_single rfl i q
/-- The right operand's row coordinate is the contraction index. -/
theorem rhs_mm2_0 (i : S10000x256.Idx) (q : dot_S10000x384_S384x256_S10000x256_1_0_0_1_n_n.contr.Idx) :
    (dot_S10000x384_S384x256_S10000x256_1_0_0_1_n_n.rhsIdx i q 0).val = (q ⟨0, by decide⟩).val :=
  dot_S10000x384_S384x256_S10000x256_1_0_0_1_n_n.rhsIdx_val_of_single rfl i q
/-- The right operand's column coordinate is the output's column. -/
theorem rhs_mm2_1 (i : S10000x256.Idx) (q : dot_S10000x384_S384x256_S10000x256_1_0_0_1_n_n.contr.Idx) :
    (dot_S10000x384_S384x256_S10000x256_1_0_0_1_n_n.rhsIdx i q 1).val = (i 1).val := by
  unfold DotDims.rhsIdx
  rw [dif_neg (show ¬(1 : Fin S384x256.rank) ∈ dot_S10000x384_S384x256_S10000x256_1_0_0_1_n_n.rhsBatch by decide), dif_pos (show (1 : Fin S384x256.rank) ∈ dot_S10000x384_S384x256_S10000x256_1_0_0_1_n_n.rhsNonContracting by decide)]
  rfl

/-- Into the zero accumulator the product at (a, b) is the sum over jj of A[a, jj] · B[jj, b]. -/
theorem mm2_apply (A : FVec Ideal S10000x384 .f32) (B : FVec Ideal S384x256 .f32) (a : Fin 10000) (b : Fin 256) :
    matmul dot_S10000x384_S384x256_S10000x256_1_0_0_1_n_n none A B (constant S10000x256 .f32 0x00000000#32) (ix2 a b)
      = ∑ jj : Fin 384, A (ix2 a jj) * B (ix2 jj b) := by
  simp only [matmul]
  rw [Ideal.matmul_constant_zero_apply, ← Equiv.sum_comp (ValueIdx.contrEquiv1 dot_S10000x384_S384x256_S10000x256_1_0_0_1_n_n 384 rfl rfl).symm]
  refine Finset.sum_congr rfl fun k _ => ?_
  have hk := ValueIdx.contrEquiv1_symm_val dot_S10000x384_S384x256_S10000x256_1_0_0_1_n_n 384 rfl rfl k
  have el : dot_S10000x384_S384x256_S10000x256_1_0_0_1_n_n.lhsIdx (ix2 a b) ((ValueIdx.contrEquiv1 dot_S10000x384_S384x256_S10000x256_1_0_0_1_n_n 384 rfl rfl).symm k) = ix2 a k := funext fun ax => Fin.ext (by
    match ax with
    | ⟨0, _⟩ => exact lhs_mm2_0 _ _
    | ⟨1, _⟩ => exact (lhs_mm2_1 _ _).trans hk)
  have er : dot_S10000x384_S384x256_S10000x256_1_0_0_1_n_n.rhsIdx (ix2 a b) ((ValueIdx.contrEquiv1 dot_S10000x384_S384x256_S10000x256_1_0_0_1_n_n 384 rfl rfl).symm k) = ix2 k b := funext fun ax => Fin.ext (by
    match ax with
    | ⟨0, _⟩ => exact (rhs_mm2_0 _ _).trans hk
    | ⟨1, _⟩ => exact rhs_mm2_1 _ _)
  rw [el, er]

/-! ## The mask: block column jj of grid step k lies inside the array -/

/-- With k below 27 and jj below 384 neither 384·k nor 10000 − 384·k wraps in 32 bits and both sides of the
    signed comparison are small non-negative numbers, so the bit is set exactly when 384·k + jj < 10000. -/
theorem mask_bit (k jj : Nat) (hk : k < 27) (hj : jj < 384) :
    IntOp.cmpi .slt (BitVec.ofNat 32 jj) (Scalar.subi 10000#32 (Scalar.muli (BitVec.ofNat 32 k) 384#32)) = 1#1
      ↔ 384 * k + jj < 10000 := by
  have hv : Scalar.subi 10000#32 (Scalar.muli (BitVec.ofNat 32 k) 384#32) = BitVec.ofNat 32 (10000 - 384 * k) := by
    apply BitVec.eq_of_toNat_eq
    show (10000#32 - BitVec.ofNat 32 k * 384#32).toNat = _
    rw [BitVec.toNat_sub, BitVec.toNat_mul, BitVec.toNat_ofNat, BitVec.toNat_ofNat, BitVec.toNat_ofNat, BitVec.toNat_ofNat]
    omega
  have small : ∀ n : Nat, n < 2 ^ 31 → (BitVec.ofNat 32 n).toInt = (n : Int) := fun n hn => by
    have e : (BitVec.ofNat 32 n).toNat = n := by rw [BitVec.toNat_ofNat]; exact Nat.mod_eq_of_lt (by omega)
    rw [BitVec.toInt_eq_toNat_of_lt (by rw [e]; omega), e]
  rw [hv, IntOp.cmpi_slt, small jj (by omega), small (10000 - 384 * k) (by omega)]
  omega

/-! ## The masked hidden rows, and the payload -/

/-- Row jj of the masked hidden block at column c: the first product plus the bias where the block's column
    384·k + jj is inside the array, zero past its end. -/
theorem hidden_apply (k : Nat) (hk : k < 27) (X0 : FVec Ideal S384x256 .f32) (X1 : FVec Ideal S256x256 .f32)
    (X2 : FVec Ideal S1x256 .f32) (jj : Fin 384) (c : Fin 256) :
    select (cmpi .slt (iota .tc S384x256 32 [0] iota_S384x256_d0_w32)
        (broadcast S384x256 (Scalar.subi 10000#32 (Scalar.muli (BitVec.ofNat 32 k) 384#32))))
      (addf (matmul dot_S384x256_S256x256_S384x256_1_0_0_1_n_n none X0 (shapeCast S256x256 X1 shapeCasts_S256x256_S256x256) (constant S384x256 .f32 0x00000000#32))
        (broadcastTo S384x256 (shapeCast S1x256 X2 shapeCasts_S1x256_S1x256) broadcasts_S1x256_S384x256))
      (broadcast S384x256 (Scalar.ofBits (F := Ideal) .f32 0x00000000#32)) (ix2 jj c)
      = if 384 * k + jj.val < 10000 then (∑ d : Fin 256, X0 (ix2 jj d) * X1 (ix2 d c)) + X2 (ix2 (0 : Fin 1) c) else 0 := by
  rw [shapeCast_self, shapeCast_self]
  show Scalar.select (IntOp.cmpi .slt (iota .tc S384x256 32 [0] iota_S384x256_d0_w32 (ix2 jj c))
      (Scalar.subi 10000#32 (Scalar.muli (BitVec.ofNat 32 k) 384#32)))
    (matmul dot_S384x256_S256x256_S384x256_1_0_0_1_n_n none X0 X1 (constant S384x256 .f32 0x00000000#32) (ix2 jj c)
      + broadcastTo S384x256 X2 broadcasts_S1x256_S384x256 (ix2 jj c))
    (Ideal.ofBits .f32 0x00000000#32) = _
  rw [iota_single_apply, mm1_apply, broadcastTo_1b_ab_apply, Ideal.ofBits_zero_f32]
  exact if_congr (mask_bit k jj.val hk jj.isLt) rfl rfl

/-- The partial product at (r, c). -/
theorem pay1_apply (i : grid0.Coords) (X0 : Vec Ideal S384x256 .f32) (X1 : Vec Ideal S256x256 .f32) (X2 : Vec Ideal S1x256 .f32)
    (X3 : Vec Ideal S10000x384 .f32) (r : Fin 10000) (c : Fin 256) :
    k0_pay1 (F := Ideal) i X0 X1 X2 X3 (ix2 r c)
      = ∑ jj : Fin 384, X3 (ix2 r jj) * (if 384 * (i 0).val + jj.val < 10000
          then (∑ d : Fin 256, X0 (ix2 jj d) * X1 (ix2 d c)) + X2 (ix2 (0 : Fin 1) c) else 0) := by
  have hk : (i 0).val < 27 := (i 0).isLt
  unfold k0_pay1
  refine (mm2_apply X3 _ r c).trans ?_
  refine Finset.sum_congr rfl fun jj _ => ?_
  exact congrArg (X3 (ix2 r jj) * ·) (hidden_apply (i 0).val hk X0 X1 X2 jj c)

end Cert.Proof.IPayload

end
-- ==== Proof.IReads.lean ====
/-
  The staging buffers' contents read at an index, and one grid point's partial product as a block of the
  specification's sum.

  A clipped block read at a row or column that lies inside the array is the array's entry there, whatever fills the
  buffer past the array's end; the weights' block is the transposed weight matrix and the bias's block the bias as a
  row. With the matrix product read as a sum (`IPayload.pay1_apply`), point t's partial product at (r, c) is the sum
  over the block's columns of adj[r, 384t + jj] · hid[384t + jj, c], a column past the array's end contributing
  zero: `Spec.blk` of the terms of adj · hid.
-/
import proofs.«139004_g26826365731398_cont_9to1_2211_11_alg».proof.Proof.IData
import proofs.«139004_g26826365731398_cont_9to1_2211_11_alg».proof.Proof.IPayload
import Idealize.ShloMosaic.Lib.ValueLayout
import Idealize.ShloMosaic.Lib.StableHlo.Run

set_option maxRecDepth 16384

noncomputable section

open scoped BigOperators

namespace Cert.Proof.IRun

open Cert.KernelIdeal Cert.KernelIdeal.Gen
open Idealize.ShloMosaic Idealize.ShloMosaic.ValueIdx
open Idealize.ShloMosaic.TcCoe Idealize.ShloMosaic.Tactic
open Idealize.SL Idealize.SL.Sem
open Idealize.ShloMosaic.Pipeline (Dat Cfg Window ΦA)

variable (m : (ℓ : Loc nD τ sig) → Buf (Elt Ideal) ℓ)

/-! ## The buffers' contents read at an index -/

/-- A block of x, however filled out past the array's end, read at a row that is inside the array: the array's row. -/
theorem xread (c : Dev nD) (t : Fin cfg0.N) (d0 : win0_0.block.Idx → EReal) (jj : Fin 384) (dd : Fin 256)
    (h : 384 * t.val + jj.val < 10000) :
    win0_0.fill (grid0.coords t) d0 (iblk m c 0 t) (ix2 jj dd) = xA m c (ix2 ⟨384 * t.val + jj.val, h⟩ dd) := by
  have hm : win0_0.moved (grid0.coords t) (ix2 jj dd) = true := (win0_0.moved_iff _ _).mpr fun a => by
    match a with
    | ⟨0, _⟩ => show jj.val < win0_0.xsize (grid0.coords t) 0; rw [xsize0_0 t]; have := jj.isLt; omega
    | ⟨1, _⟩ => show dd.val < win0_0.xsize (grid0.coords t) 1; rw [xsize0_1 t]; exact dd.isLt
  unfold Window.fill
  rw [dif_pos hm]
  show V m c main_arg0 (((cfg0.win 0).blk t).view.emb _) = _
  rw [V_main_arg0]
  refine congrArg _ (funext fun a => Fin.ext ?_)
  match a with
  | ⟨0, _⟩ => show win0_0.index t 0 * 384 + 1 * jj.val = 384 * t.val + jj.val; rw [(index0 t).1]; omega
  | ⟨1, _⟩ => show win0_0.index t 1 * 256 + 1 * dd.val = dd.val; rw [(index0 t).2]; omega

/-- A block of the adjacency read at a column that is inside the array: the array's column. -/
theorem aread (c : Dev nD) (t : Fin cfg0.N) (d3 : win0_3.block.Idx → EReal) (r : Fin 10000) (jj : Fin 384)
    (h : 384 * t.val + jj.val < 10000) :
    win0_3.fill (grid0.coords t) d3 (iblk m c 3 t) (ix2 r jj) = adjA m c (ix2 r ⟨384 * t.val + jj.val, h⟩) := by
  have hm : win0_3.moved (grid0.coords t) (ix2 r jj) = true := (win0_3.moved_iff _ _).mpr fun a => by
    match a with
    | ⟨0, _⟩ => show r.val < win0_3.xsize (grid0.coords t) 0; rw [xsize3_0 t]; exact r.isLt
    | ⟨1, _⟩ => show jj.val < win0_3.xsize (grid0.coords t) 1; rw [xsize3_1 t]; have := jj.isLt; omega
  unfold Window.fill
  rw [dif_pos hm]
  show V m c main_arg1 (((cfg0.win 3).blk t).view.emb _) = _
  rw [V_main_arg1]
  refine congrArg _ (funext fun a => Fin.ext ?_)
  match a with
  | ⟨0, _⟩ => show win0_3.index t 0 * 10000 + 1 * r.val = r.val; rw [(index3 t).1]; omega
  | ⟨1, _⟩ => show win0_3.index t 1 * 384 + 1 * jj.val = 384 * t.val + jj.val; rw [(index3 t).2]; omega

/-- The weights' and the bias's blocks are their whole arrays (block index 0 of a window that spans the array), -/
theorem index1 : ∀ t : Fin grid0.N, (fun a => win0_1.index t a * main_v0.ty.shape.size a) = fun _ => 0 := by decide +kernel
theorem index2 : ∀ t : Fin grid0.N, (fun a => win0_2.index t a * main_v1.ty.shape.size a) = fun _ => 0 := by decide +kernel

theorem wblk (c : Dev nD) (t : Fin cfg0.N) : iblk m c 1 t = V m c main_v0 :=
  Memref.read_access_unit_zero (Elt Ideal) main_v0 (index1 t) _ _
theorem bblk (c : Dev nD) (t : Fin cfg0.N) : iblk m c 2 t = V m c main_v1 :=
  Memref.read_access_unit_zero (Elt Ideal) main_v1 (index2 t) _ _

/-- which the host operations before the region wrote: the transposed weights and the bias as a row. -/
theorem V_v0 (c : Dev nD) : (V m c main_v0 : S256x256.Idx → EReal) = transpose S256x256 [1, 0] (wA m c) transposes_S256x256_S256x256_1_0 := by
  dsimp only [Gen.V, Gen.hostOps0]; after_results
theorem V_v1 (c : Dev nD) : (V m c main_v1 : S1x256.Idx → EReal) = shapeCast S1x256 (bA m c) shapeCasts_S256_S1x256 := by
  dsimp only [Gen.V, Gen.hostOps0]; after_results; rfl

/-- Entry (d, c) of the weights' block is W[c, d]. -/
theorem wread (c : Dev nD) (t : Fin cfg0.N) (dd : Fin 256) (cc : Fin 256) : iblk m c 1 t (ix2 dd cc) = wA m c (ix2 cc dd) := by
  rw [wblk, V_v0]
  exact transpose_apply [1, 0] (wA m c) transposes_S256x256_S256x256_1_0 (ix2 dd cc) (ix2 cc dd) (fun b => match b with
    | ⟨0, _⟩ => rfl
    | ⟨1, _⟩ => rfl)

/-- Entry (0, c) of the bias's block is b[c]. -/
theorem bread (c : Dev nD) (t : Fin cfg0.N) (cc : Fin 256) : iblk m c 2 t (ix2 (0 : Fin 1) cc) = bA m c (ix1 cc) := by
  rw [bblk, V_v1]
  exact shapeCast_a_1a_apply (bA m c) shapeCasts_S256_S1x256 0 cc

/-! ## One point's partial product -/

/-- The partial product at point t, whatever fills the clipped buffers past the array's end, is column block t of
    adj · hid: inside the array the buffers hold the arrays' entries; past its end the hidden row is masked to zero, and
    zero times anything is zero. -/
theorem part_eq (c : Dev nD) (t : Fin cfg0.N) (d0 : win0_0.block.Idx → EReal) (d3 : win0_3.block.Idx → EReal)
    (r : Fin 10000) (cc : Fin 256) :
    k0_pay1 (F := Ideal) (grid0.coords t) (win0_0.fill (grid0.coords t) d0 (iblk m c 0 t)) (iblk m c 1 t) (iblk m c 2 t)
        (win0_3.fill (grid0.coords t) d3 (iblk m c 3 t)) (ix2 r cc)
      = Spec.blk (Spec.term (xA m c) (adjA m c) (wA m c) (bA m c) r cc) t.val := by
  refine (IPayload.pay1_apply (grid0.coords t) _ _ _ _ r cc).trans ?_
  unfold Spec.blk
  refine Finset.sum_congr rfl fun jj _ => ?_
  rw [coord0 t]
  by_cases h : 384 * t.val + jj.val < 10000
  · rw [if_pos h, dif_pos h, aread m c t d3 r jj h, bread m c t cc]
    unfold Spec.term Spec.hid
    refine congrArg (fun z => _ * (z + _)) (Finset.sum_congr rfl fun dd _ => ?_)
    rw [xread m c t d0 jj dd h, wread m c t dd cc]
  · rw [if_neg h, dif_neg h]
    exact mul_zero _

end Cert.Proof.IRun

end
-- ==== Proof.IBody.lean ====
/-
  The kernel body's three runs, for every float instance.

  The body loads its four input buffers whole — 384 rows of x, the transposed weights, the bias row, 384 columns of the
  adjacency — and then, by the grid point, takes exactly one of three conditionals: at the first point it stores the
  partial product into the output buffer; at a middle point it loads the output buffer and stores its value plus the
  partial product; at the last point it stores the positive part of that sum. Each run leaves the inputs as found and
  the output buffer at the taken branch's value of what was loaded.
-/
import proofs.«139004_g26826365731398_cont_9to1_2211_11_alg».proof.Proof.Gen.KernelIdeal.Frame
import proofs.«139004_g26826365731398_cont_9to1_2211_11_alg».proof.Proof.Gen.KernelIdeal.Skeleton
import Idealize.ShloMosaic.Lib.Pipeline.Kit
import Idealize.ShloMosaic.Lib.Tactic
import Idealize.ShloMosaic.Lib.Pipeline.Value

noncomputable section

namespace Cert.Proof.IBody

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]
local notation "𝕄" => MT nD τ sig Unit (Elt F) ℕ (UR sig nD τ) ℕ

/-- The kernel calls nothing: no variants. -/
abbrev 𝒱₀ : Variants := Variants.none

/-- The whole-buffer rectangle's offsets are zero. -/
theorem off0 : (![0, 0] : Fin 2 → ℕ) = fun _ => 0 := funext fun a => by fin_cases a <;> rfl

/-- One store through the output buffer's whole rectangle covers every index. -/
theorem cover_out (w : Vec F S10000x256 .f32) (y : S10000x256.Idx) :
    ∃ pc ∈ ([⟨Rect.unit (s := S10000x256) ![0, 0] S10000x256.size inb_S10000x256_S10000x256_0_0, w⟩] :
      List (View.Piece (Elt F) S10000x256 .f32)), y ∈ pc.1.set :=
  View.cover_of_tiled _ S10000x256.size (by rfl) y

/-! ## The body's three runs

At a grid point exactly one of the body's three conditionals is taken. Each run reads the four input buffers whole,
and leaves the output buffer holding the taken branch's value of what it read; the inputs are left as found. -/

theorem sound_first (c : Dev nD) (i : grid0.Coords)
    (arg1 : Memref sig .tc .vmem S384x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S10000x384 .f32) (harg4 : arg4.IsWhole)
    (arg5 : Memref sig .tc .vmem S10000x256 .f32) (harg5 : arg5.IsWhole)
    (X0 : Vec F S384x256 .f32) (X1 : Vec F S256x256 .f32) (X2 : Vec F S1x256 .f32) (X3 : Vec F S10000x384 .f32) (Y : Vec F S10000x256 .f32)
    (h1 : k0_cond1 i = 1#1) (h2 : ¬k0_cond2 i = 1#1) (h3 : ¬k0_cond3 i = 1#1)
    (K : PUnit → sProp 𝕄) :
    iprop(owns (c : Thread nD τ) arg1 fullShare X0 ∗ owns (c : Thread nD τ) arg2 fullShare X1 ∗ owns (c : Thread nD τ) arg3 fullShare X2
        ∗ owns (c : Thread nD τ) arg4 fullShare X3 ∗ owns (c : Thread nD τ) arg5 fullShare Y
        ∗ (iprop(owns (c : Thread nD τ) arg1 fullShare X0 ∗ owns (c : Thread nD τ) arg2 fullShare X1 ∗ owns (c : Thread nD τ) arg3 fullShare X2
            ∗ owns (c : Thread nD τ) arg4 fullShare X3 ∗ owns (c : Thread nD τ) arg5 fullShare (k0_pay1 i X0 X1 X2 X3)) -∗ K ⟨⟩))
      ⊢ wp frame (wpE (defs₀ (F := F)) 𝒱₀ c none) Set.univ (cc0__gcn_kernel i arg1 harg1 arg2 harg2 arg3 harg3 arg4 harg4 arg5 harg5) K := by
  -- the printed body is its sequence of loads and stores over the named payloads; with the three
  -- conditions decided, the run is the four input loads, the taken branch's loads of the output
  -- buffer and its one store
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  sl_exec
  sl_step
  iapply Hk
  -- the inputs' buffers are untouched
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  -- the output buffer: one store through the whole rectangle, so it reads as the stored payload,
  -- whose operands are whole-rectangle loads, that is, the buffers' contents
  iexists _; isplitr
  swap; · iexact H5
  ipureintro
  rw [View.read_writes_eq_canon _ _ _ (cover_out _), View.canon_unit_zero off0]
  rw [View.readAt_eq_ld, View.readAt_eq_ld, View.readAt_eq_ld, View.readAt_eq_ld,
    View.ld_unit_zero (S := S384x256) off0, View.ld_unit_zero (S := S256x256) off0,
    View.ld_unit_zero (S := S1x256) off0, View.ld_unit_zero (S := S10000x384) off0]

theorem sound_mid (c : Dev nD) (i : grid0.Coords)
    (arg1 : Memref sig .tc .vmem S384x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S10000x384 .f32) (harg4 : arg4.IsWhole)
    (arg5 : Memref sig .tc .vmem S10000x256 .f32) (harg5 : arg5.IsWhole)
    (X0 : Vec F S384x256 .f32) (X1 : Vec F S256x256 .f32) (X2 : Vec F S1x256 .f32) (X3 : Vec F S10000x384 .f32) (Y : Vec F S10000x256 .f32)
    (h1 : ¬k0_cond1 i = 1#1) (h2 : k0_cond2 i = 1#1) (h3 : ¬k0_cond3 i = 1#1)
    (K : PUnit → sProp 𝕄) :
    iprop(owns (c : Thread nD τ) arg1 fullShare X0 ∗ owns (c : Thread nD τ) arg2 fullShare X1 ∗ owns (c : Thread nD τ) arg3 fullShare X2
        ∗ owns (c : Thread nD τ) arg4 fullShare X3 ∗ owns (c : Thread nD τ) arg5 fullShare Y
        ∗ (iprop(owns (c : Thread nD τ) arg1 fullShare X0 ∗ owns (c : Thread nD τ) arg2 fullShare X1 ∗ owns (c : Thread nD τ) arg3 fullShare X2
            ∗ owns (c : Thread nD τ) arg4 fullShare X3 ∗ owns (c : Thread nD τ) arg5 fullShare (k0_pay2 i X0 X1 X2 X3 Y)) -∗ K ⟨⟩))
      ⊢ wp frame (wpE (defs₀ (F := F)) 𝒱₀ c none) Set.univ (cc0__gcn_kernel i arg1 harg1 arg2 harg2 arg3 harg3 arg4 harg4 arg5 harg5) K := by
  -- the printed body is its sequence of loads and stores over the named payloads; with the three
  -- conditions decided, the run is the four input loads, the taken branch's loads of the output
  -- buffer and its one store
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  sl_exec
  sl_step
  iapply Hk
  -- the inputs' buffers are untouched
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  -- the output buffer: one store through the whole rectangle, so it reads as the stored payload,
  -- whose operands are whole-rectangle loads, that is, the buffers' contents
  iexists _; isplitr
  swap; · iexact H5
  ipureintro
  rw [View.read_writes_eq_canon _ _ _ (cover_out _), View.canon_unit_zero off0]
  rw [View.readAt_eq_ld, View.readAt_eq_ld, View.readAt_eq_ld, View.readAt_eq_ld, View.readAt_eq_ld,
    View.ld_unit_zero (S := S384x256) off0, View.ld_unit_zero (S := S256x256) off0,
    View.ld_unit_zero (S := S1x256) off0, View.ld_unit_zero (S := S10000x384) off0,
    View.ld_unit_zero (S := S10000x256) off0]

theorem sound_last (c : Dev nD) (i : grid0.Coords)
    (arg1 : Memref sig .tc .vmem S384x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S10000x384 .f32) (harg4 : arg4.IsWhole)
    (arg5 : Memref sig .tc .vmem S10000x256 .f32) (harg5 : arg5.IsWhole)
    (X0 : Vec F S384x256 .f32) (X1 : Vec F S256x256 .f32) (X2 : Vec F S1x256 .f32) (X3 : Vec F S10000x384 .f32) (Y : Vec F S10000x256 .f32)
    (h1 : ¬k0_cond1 i = 1#1) (h2 : ¬k0_cond2 i = 1#1) (h3 : k0_cond3 i = 1#1)
    (K : PUnit → sProp 𝕄) :
    iprop(owns (c : Thread nD τ) arg1 fullShare X0 ∗ owns (c : Thread nD τ) arg2 fullShare X1 ∗ owns (c : Thread nD τ) arg3 fullShare X2
        ∗ owns (c : Thread nD τ) arg4 fullShare X3 ∗ owns (c : Thread nD τ) arg5 fullShare Y
        ∗ (iprop(owns (c : Thread nD τ) arg1 fullShare X0 ∗ owns (c : Thread nD τ) arg2 fullShare X1 ∗ owns (c : Thread nD τ) arg3 fullShare X2
            ∗ owns (c : Thread nD τ) arg4 fullShare X3 ∗ owns (c : Thread nD τ) arg5 fullShare (k0_pay3 i X0 X1 X2 X3 Y)) -∗ K ⟨⟩))
      ⊢ wp frame (wpE (defs₀ (F := F)) 𝒱₀ c none) Set.univ (cc0__gcn_kernel i arg1 harg1 arg2 harg2 arg3 harg3 arg4 harg4 arg5 harg5) K := by
  -- the printed body is its sequence of loads and stores over the named payloads; with the three
  -- conditions decided, the run is the four input loads, the taken branch's loads of the output
  -- buffer and its one store
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  sl_exec
  sl_step
  iapply Hk
  -- the inputs' buffers are untouched
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  -- the output buffer: one store through the whole rectangle, so it reads as the stored payload,
  -- whose operands are whole-rectangle loads, that is, the buffers' contents
  iexists _; isplitr
  swap; · iexact H5
  ipureintro
  rw [View.read_writes_eq_canon _ _ _ (cover_out _), View.canon_unit_zero off0]
  rw [View.readAt_eq_ld, View.readAt_eq_ld, View.readAt_eq_ld, View.readAt_eq_ld, View.readAt_eq_ld,
    View.ld_unit_zero (S := S384x256) off0, View.ld_unit_zero (S := S256x256) off0,
    View.ld_unit_zero (S := S1x256) off0, View.ld_unit_zero (S := S10000x384) off0,
    View.ld_unit_zero (S := S10000x256) off0]

end Cert.Proof.IBody

end
-- ==== Proof.IPayload23.lean ====
import proofs.«139004_g26826365731398_cont_9to1_2211_11_alg».proof.Proof.Gen.KernelIdeal.Skeleton
import Idealize.ShloMosaic.Lib.ValueIdx
import Idealize.ShloMosaic.Lib.Pipeline.Value
import Idealize.ShloMosaic.PureOps.Ideal.Laws

/-
  The values the second and third branches of the walk over the column blocks store, read at an index.

  Both branches add the block's partial product to what the output buffer already holds: at an index j the stored value
  is Y j plus the partial product at j (the cast of Y to its own shape is the identity). The last branch then takes the
  maximum with a constant zero array, so at j it stores the positive part max (Y j + partial product at j) 0. The partial
  product itself is left as the named value it is.
-/

noncomputable section

namespace Cert.Proof.IPayload23

open Cert.KernelIdeal Cert.KernelIdeal.Gen Idealize.ShloMosaic Idealize.ShloMosaic.ValueIdx

/-- The middle branches store, at j, the buffer's old value plus the block's partial product. -/
theorem pay2_apply (i : grid0.Coords) (X0 : Vec Ideal S384x256 .f32) (X1 : Vec Ideal S256x256 .f32) (X2 : Vec Ideal S1x256 .f32) (X3 : Vec Ideal S10000x384 .f32) (Y : Vec Ideal S10000x256 .f32) (j : S10000x256.Idx) :
    k0_pay2 (F := Ideal) i X0 X1 X2 X3 Y j = Y j + k0_pay1 (F := Ideal) i X0 X1 X2 X3 j := by
  unfold k0_pay2
  rw [shapeCast_self]
  rfl

/-- The last branch stores, at j, the positive part of the old value plus the block's partial product. -/
theorem pay3_apply (i : grid0.Coords) (X0 : Vec Ideal S384x256 .f32) (X1 : Vec Ideal S256x256 .f32) (X2 : Vec Ideal S1x256 .f32) (X3 : Vec Ideal S10000x384 .f32) (Y : Vec Ideal S10000x256 .f32) (j : S10000x256.Idx) :
    k0_pay3 (F := Ideal) i X0 X1 X2 X3 Y j = max (Y j + k0_pay1 (F := Ideal) i X0 X1 X2 X3 j) 0 := by
  unfold k0_pay3
  rw [shapeCast_self]
  have h0 : (Scalar.ofBits (F := Ideal) .f32 0x00000000#32 : Ideal .f32) = 0 := Ideal.ofBits_zero_f32
  show max (Y j + k0_pay1 (F := Ideal) i X0 X1 X2 X3 j) (Scalar.ofBits (F := Ideal) .f32 0x00000000#32) = _
  rw [h0]

end Cert.Proof.IPayload23

end
-- ==== Proof.IOblig.lean ====
/-
  The idealized kernel's body obligation: at every grid point the body, handed the buffers as the pipeline leaves
  them, leaves the output buffer at the specification's running sum.

  The value lemmas: point 0 stores its partial product, block 0 of the sum; a point 0 < t < 26 stores the old value,
  blocks 0 … t - 1, plus block t; point 26 stores the positive part of blocks 0 … 25 plus block 26. None depends on
  what fills the clipped buffers past the arrays' end (`part_eq`).
-/
import proofs.«139004_g26826365731398_cont_9to1_2211_11_alg».proof.Proof.IReads
import proofs.«139004_g26826365731398_cont_9to1_2211_11_alg».proof.Proof.IBody
import proofs.«139004_g26826365731398_cont_9to1_2211_11_alg».proof.Proof.IPayload23
import Idealize.ShloMosaic.Lib.Tactic

set_option maxRecDepth 16384

noncomputable section

open scoped BigOperators

namespace Cert.Proof.IRun

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf ΦA)
open Cert.Proof.IBody (𝒱₀)

local notation "𝕄" => MT nD τ sig Unit (Elt Ideal) ℕ (UR sig nD τ) ℕ

variable (m : (ℓ : Loc nD τ sig) → Buf (Elt Ideal) ℓ)

/-! ## What each branch stores -/

/-- Point 0 stores block 0 of the sum. -/
theorem out_first (c : Dev nD) (t : Fin cfg0.N) (ht : t.val = 0) (d0 : win0_0.block.Idx → EReal) (d3 : win0_3.block.Idx → EReal) :
    k0_pay1 (F := Ideal) (grid0.coords t) (win0_0.fill (grid0.coords t) d0 (iblk m c 0 t)) (iblk m c 1 t) (iblk m c 2 t)
        (win0_3.fill (grid0.coords t) d3 (iblk m c 3 t)) = accV m c t.val := by
  funext j
  obtain ⟨r, cc, rfl⟩ : ∃ (r : Fin 10000) (cc : Fin 256), j = ix2 r cc := ⟨j 0, j 1, eq_ix2 j⟩
  rw [part_eq m c t d0 d3 r cc, ht]
  unfold accV Spec.accOut
  rw [if_pos (by decide)]
  rfl

/-- A point 0 < t < 26 stores the running sum up to t - 1 plus block t: the running sum up to t. -/
theorem out_mid (c : Dev nD) (t : Fin cfg0.N) (ht0 : 0 < t.val) (ht : t.val < 26) (d0 : win0_0.block.Idx → EReal)
    (d3 : win0_3.block.Idx → EReal) :
    k0_pay2 (F := Ideal) (grid0.coords t) (win0_0.fill (grid0.coords t) d0 (iblk m c 0 t)) (iblk m c 1 t) (iblk m c 2 t)
        (win0_3.fill (grid0.coords t) d3 (iblk m c 3 t)) (accV m c (t.val - 1)) = accV m c t.val := by
  funext j
  obtain ⟨r, cc, rfl⟩ : ∃ (r : Fin 10000) (cc : Fin 256), j = ix2 r cc := ⟨j 0, j 1, eq_ix2 j⟩
  rw [IPayload23.pay2_apply, part_eq m c t d0 d3 r cc]
  obtain ⟨n, hn⟩ : ∃ n, t.val = n + 1 := ⟨t.val - 1, by omega⟩
  rw [hn, Nat.add_sub_cancel]
  unfold accV Spec.accOut
  rw [if_pos (by omega), if_pos (by omega)]
  rfl

/-- Point 26 stores the positive part of the running sum up to 25 plus block 26: the layer's entry. -/
theorem out_last (c : Dev nD) (t : Fin cfg0.N) (ht : t.val = 26) (d0 : win0_0.block.Idx → EReal) (d3 : win0_3.block.Idx → EReal) :
    k0_pay3 (F := Ideal) (grid0.coords t) (win0_0.fill (grid0.coords t) d0 (iblk m c 0 t)) (iblk m c 1 t) (iblk m c 2 t)
        (win0_3.fill (grid0.coords t) d3 (iblk m c 3 t)) (accV m c (t.val - 1)) = accV m c t.val := by
  funext j
  obtain ⟨r, cc, rfl⟩ : ∃ (r : Fin 10000) (cc : Fin 256), j = ix2 r cc := ⟨j 0, j 1, eq_ix2 j⟩
  rw [IPayload23.pay3_apply, part_eq m c t d0 d3 r cc, ht]
  unfold accV Spec.accOut
  rw [if_pos (by decide), if_neg (by decide)]
  rfl

/-! ## The obligation -/

theorem idle4' (t : Fin cfg0.N) : idle0 4 (grid0.coords t) = false := idle4 t

/-- The moved part of what the clipped windows' buffers are said to hold after the body is their block. -/
theorem cut_after0 (c : Dev nD) (t : Fin cfg0.N) : win0_0.cut (grid0.coords t) ((dats m 0 c).after 0 t) = iblk m c 0 t := by
  rw [after0_0]; exact win0_0.cut_fill _ _ _
theorem cut_after3 (c : Dev nD) (t : Fin cfg0.N) : win0_3.cut (grid0.coords t) ((dats m 0 c).after 3 t) = iblk m c 3 t := by
  rw [after0_3]; exact win0_3.cut_fill _ _ _

/-- The body obligation of the library, at every point: the buffers arrive holding their blocks (the clipped ones
    filled out with anything), the output buffer fresh at point 0 and at the running sum afterwards; the taken branch's
    run leaves the inputs as found and the output at the next running sum. -/
theorem body_obligation (c : Dev nD) : BodyObligationLoose (dats m 0 c) (defs₀ (F := Ideal)) 𝒱₀ () Set.univ := fun t => by
  rw [bigSep_W0, bigSep_W0]
  simp only
  rw [idle4' t]
  simp only
  rw [show (dats m 0 c).Φ t.succ = (dats m 0 c).Φ t.castSucc from rfl,
    show (dats m 0 c).owesAt () t.succ = (dats m 0 c).owesAt () t.castSucc from rfl]
  show _ ⊢ wp frame (wpE (defs₀ (F := Ideal)) 𝒱₀ c none) Set.univ (bodyAt0 t) _
  unfold bodyAt0
  iintro ⟨HΦ, Ho, ⟨%d0, H0⟩, ⟨%d1, H1⟩, ⟨%d2, H2⟩, ⟨%d3, H3⟩, ⟨%d4, H4⟩⟩
  rw [before0_0 m c t d0, before0_1 m c t d1, before0_2 m c t d2, before0_3 m c t d3]
  rcases point_cases t with ⟨ht, h1, h2, h3⟩ | ⟨ht0, ht26, h1, h2, h3⟩ | ⟨ht, h1, h2, h3⟩
  · rw [before0_4_zero m c t ht d4]
    iapply (IBody.sound_first (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4))
      (win0_0.fill (grid0.coords t) d0 (iblk m c 0 t)) (iblk m c 1 t) (iblk m c 2 t) (win0_3.fill (grid0.coords t) d3 (iblk m c 3 t)) d4 h1 h2 h3 _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]
    · iexists d0
      change _ ⊢ owns (c : Thread nD τ) (stage0_0 (cfg0.slots t 0)) fullShare (win0_0.fill (grid0.coords t) d0 (win0_0.cut (grid0.coords t) ((dats m 0 c).after 0 t)))
      rw [cut_after0]; try iexact H0
    isplitl [H1]; · rw [after0_1]; iexact H1
    isplitl [H2]; · rw [after0_2]; iexact H2
    isplitl [H3]
    · iexists d3
      change _ ⊢ owns (c : Thread nD τ) (stage0_3 (cfg0.slots t 3)) fullShare (win0_3.fill (grid0.coords t) d3 (win0_3.cut (grid0.coords t) ((dats m 0 c).after 3 t)))
      rw [cut_after3]; try iexact H3
    · rw [after0_4, ← out_first m c t ht d0 d3]; iexact H4
  · rw [before0_4_succ m c t (by omega) d4]
    iapply (IBody.sound_mid (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4))
      (win0_0.fill (grid0.coords t) d0 (iblk m c 0 t)) (iblk m c 1 t) (iblk m c 2 t) (win0_3.fill (grid0.coords t) d3 (iblk m c 3 t)) (accV m c (t.val - 1)) h1 h2 h3 _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]
    · iexists d0
      change _ ⊢ owns (c : Thread nD τ) (stage0_0 (cfg0.slots t 0)) fullShare (win0_0.fill (grid0.coords t) d0 (win0_0.cut (grid0.coords t) ((dats m 0 c).after 0 t)))
      rw [cut_after0]; try iexact H0
    isplitl [H1]; · rw [after0_1]; iexact H1
    isplitl [H2]; · rw [after0_2]; iexact H2
    isplitl [H3]
    · iexists d3
      change _ ⊢ owns (c : Thread nD τ) (stage0_3 (cfg0.slots t 3)) fullShare (win0_3.fill (grid0.coords t) d3 (win0_3.cut (grid0.coords t) ((dats m 0 c).after 3 t)))
      rw [cut_after3]; try iexact H3
    · rw [after0_4, ← out_mid m c t ht0 ht26 d0 d3]; iexact H4
  · rw [before0_4_succ m c t (by omega) d4]
    iapply (IBody.sound_last (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4))
      (win0_0.fill (grid0.coords t) d0 (iblk m c 0 t)) (iblk m c 1 t) (iblk m c 2 t) (win0_3.fill (grid0.coords t) d3 (iblk m c 3 t)) (accV m c (t.val - 1)) h1 h2 h3 _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]
    · iexists d0
      change _ ⊢ owns (c : Thread nD τ) (stage0_0 (cfg0.slots t 0)) fullShare (win0_0.fill (grid0.coords t) d0 (win0_0.cut (grid0.coords t) ((dats m 0 c).after 0 t)))
      rw [cut_after0]; try iexact H0
    isplitl [H1]; · rw [after0_1]; iexact H1
    isplitl [H2]; · rw [after0_2]; iexact H2
    isplitl [H3]
    · iexists d3
      change _ ⊢ owns (c : Thread nD τ) (stage0_3 (cfg0.slots t 3)) fullShare (win0_3.fill (grid0.coords t) d3 (win0_3.cut (grid0.coords t) ((dats m 0 c).after 3 t)))
      rw [cut_after3]; try iexact H3
    · rw [after0_4, ← out_last m c t ht d0 d3]; iexact H4

end Cert.Proof.IRun

end
-- ==== Proof.IFinal.lean ====
import proofs.«139004_g26826365731398_cont_9to1_2211_11_alg».proof.Proof.IData
import Idealize.ShloMosaic.Lib.Pipeline.Cells
import Idealize.ShloMosaic.Signature.Memref

/-
  The output array after the run.

  The output window's block is the whole output array at block index 0, and it is written back exactly once: after the
  last of the 27 points. That one write-back goes through the rectangle that covers the whole array, so it replaces
  every element, and what the array held before it (whatever the 26 earlier points left, which wrote nothing back) does
  not matter. The array after the run is therefore what the last point left in the resident block: the running sum after
  block 26, positive part taken.
-/

set_option maxRecDepth 16384

noncomputable section

namespace Cert.Proof.IRun

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.Sem
open Idealize.ShloMosaic.Pipeline (Dat Cfg Window ΦA)

variable (m : (ℓ : Loc nD τ sig) → Buf (Elt Ideal) ℓ)

/-- The last of the 27 points. -/
abbrev t26 : Fin cfg0.N := ⟨26, by decide⟩

/-- The output window is written back after the last point. -/
theorem flush4_t26 : (cfg0.win 4).flush t26 = true := (flush0_4 t26).mpr rfl

/-- The output array after the run is what the last point left in the resident block: the one write-back covers the
    whole array. -/
theorem finalA_o (c : Dev nD) : (dats m 0 c).arrAt 4 cfg0.N = accV m c 26 := by
  rw [show cfg0.N = t26.val + 1 from rfl, (dats m 0 c).arrAt_succ 4 t26, if_pos flush4_t26]
  have hz : (fun a => (win0_4.index t26) a * main_v2.ty.shape.size a) = fun _ => 0 :=
    funext fun a => by fin_cases a <;> decide
  refine (Memref.write_access_unit_zero_univ (Elt Ideal) main_v2 hz _ _ _).trans ?_
  exact after0_4 m c t26

end Cert.Proof.IRun

end
-- ==== Proof.IRunMain.lean ====
/-
  The idealized kernel's run, over the extended reals: from any memory with zero counters, every weakly fair execution
  of @main on the TensorCores terminates; at the end the result array holds the graph-convolution layer
  G(x, adj, W, b) = max(adj · (x · Wᵀ + b), 0) of the four argument arrays as launched, and the four argument arrays
  hold what they held at the launch.

  The pipeline's run leaves every array at what the proof data compute: the result array at what the body left in the
  output buffer at its one write-back, after the last column block, which is the running sum of all 27 blocks with its
  positive part taken, that is, G; x and the adjacency, which the pipeline only reads, as the region found them; the
  weights and the bias, which no window of the pipeline is over, as the host operations before the region left them;
  and no host operation writes an argument.
-/
import proofs.«139004_g26826365731398_cont_9to1_2211_11_alg».proof.Proof.IOblig
import proofs.«139004_g26826365731398_cont_9to1_2211_11_alg».proof.Proof.IFinal
import Idealize.ShloMosaic.Lib.Pipeline.Kit

set_option maxRecDepth 16384

noncomputable section

open scoped BigOperators

namespace Cert.Proof.IRun

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf ΦA)
open Cert.Proof.IBody (𝒱₀)

variable (m : (ℓ : Loc nD τ sig) → Buf (Elt Ideal) ℓ) (ρ : Dev nD → PrngReg)

/-! ## The pipeline's run -/

set_option backward.isDefEq.respectTransparency.types false in
/-- From any memory with zero counters every weakly fair execution of @main terminates, and at the end every array of
    the pipeline holds what the proof data compute and every other array what the region found in it. -/
theorem run_main : θ_run defs (onTc (τ := τ) (main (F := Ideal))) (s₀ m ρ) (Pipeline.FramePost cfgs (dats m) 0 (V m)) :=
  Pipeline.θ_run_frame cfgs (dats m) (0 : Fin 1) launch0 defs₀ 𝒱₀ m ρ main
    (hbody := fun c => body_obligation m c) (hshare := fun c => (dats m 0 c).share_full fun _ => rfl)
    (howed := fun _ _ => rfl) (V := V m) (hmain := hmain m 𝒱₀) (hA := fun _ _ => rfl) (hΦ := fun _ _ => rfl)

/-! ## The arguments unchanged -/

/-- Every run terminates and ends with the four argument arrays as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-! ## The result -/

/-- After the last column block the output buffer holds the layer. -/
theorem accV_last (c : Dev nD) : accV m c 26 = Spec.G (xA m c) (adjA m c) (wA m c) (bA m c) := by
  unfold accV; exact Spec.accOut_last _ _ _ _

/-- Every run terminates and ends with the result array at the layer G of the four argument arrays as launched, and
    those four unchanged. -/
theorem run_value : θ_run defs (onTc (τ := τ) (main (F := Ideal))) ⟨m, fun _ => 0, ρ⟩ (fun r => ∀ c : Dev nD,
      r.2.mem ((c.tc : Thread nD τ).loc main_v2) = Spec.G (xA m c) (adjA m c) (wA m c) (bA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 4).trans ((finalA_o m c).trans (accV_last m c)),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.Proof.IRun

end
-- ==== Proof.RefValue.lean ====
import proofs.«139004_g26826365731398_cont_9to1_2211_11_alg».proof.Proof.Gen.ReferenceIdeal.Read
import proofs.«139004_g26826365731398_cont_9to1_2211_11_alg».proof.Proof.Spec

/-
  The reference program, read one operation at a time, is the layer `G` of the four argument arrays: entry (r, c) is
  the positive part of the sum over j of adj[r, j] · (x[j, ·] · W[c, ·] + b[c]).

  The reference transposes W before the first product, broadcasts b along the rows in two steps, and takes the maximum
  with a broadcast zero; read at an index each of these layout steps only moves the index. The four index equations
  below say where the composed moves land: on (r, j) of adj, on (j, d) of x, on (c, d) of W — the transpose undone —
  and on c of b. With them the chain of reads is, term by term, the definition of `G`.
-/

noncomputable section

open scoped BigOperators

namespace Cert.Proof.RefValue

open Idealize.ShloMosaic Idealize.ShloMosaic.ValueIdx Cert.ReferenceIdeal Cert.ReferenceIdeal.Read

/-- The second product reads the adjacency at row r = i₀, column j. -/
theorem adj_idx (i : S10000x256.Idx) (j : Fin 10000) : lidx_main_v5 i j = ix2 (i 0) j :=
  funext fun a => Fin.ext (by match a with | ⟨0, _⟩ => rfl | ⟨1, _⟩ => rfl)

/-- Under the second product's term j, the first product reads x at row j, column d. -/
theorem x_idx (i : S10000x256.Idx) (j : Fin 10000) (d : Fin 256) :
    lidx_main_v1 (ridx_main_v5 i j) d = ix2 j d :=
  funext fun a => Fin.ext (by match a with | ⟨0, _⟩ => rfl | ⟨1, _⟩ => rfl)

/-- Under the same term the first product reads the transposed W at (d, c), which is W at row c = i₁, column d. -/
theorem w_idx (i : S10000x256.Idx) (j : Fin 10000) (d : Fin 256) :
    idx_main_v0 (ridx_main_v1 (ridx_main_v5 i j) d) = ix2 (i 1) d :=
  funext fun a => Fin.ext (by match a with | ⟨0, _⟩ => rfl | ⟨1, _⟩ => rfl)

/-- The bias broadcast along the rows, read at (j, c), is b at c = i₁. -/
theorem b_idx (i : S10000x256.Idx) (j : Fin 10000) :
    idx_main_v2 (idx_main_v3 (ridx_main_v5 i j)) = ix1 (i 1) :=
  funext fun a => Fin.ext (by match a with | ⟨0, _⟩ => rfl)

/-- The hidden features the reference computes, read at the index the second product asks for, are `hid`. -/
theorem hidden_eq (x0 : (⟨Cert.ReferenceIdeal.S10000x256, .f32⟩ : BufTy).Contents (Elt Ideal))
    (x2 : (⟨Cert.ReferenceIdeal.S256x256, .f32⟩ : BufTy).Contents (Elt Ideal))
    (x3 : (⟨Cert.ReferenceIdeal.S256, .f32⟩ : BufTy).Contents (Elt Ideal))
    (i : S10000x256.Idx) (j : Fin 10000) :
    val_main_v4 (F := Ideal) x0 x2 x3 (ridx_main_v5 i j) = Cert.Proof.Spec.hid x0 x2 x3 j (i 1) := by
  rw [val_main_v4_apply, val_main_v1_apply, val_main_v3_apply, val_main_v2_apply, b_idx, Ideal.addf_def]
  unfold Cert.Proof.Spec.hid
  refine congrArg (· + x3 (ix1 (i 1))) ?_
  refine Finset.sum_congr rfl fun d _ => ?_
  rw [val_main_v0_apply, x_idx, w_idx]
  rfl

/-- The reference is the layer. -/
theorem ref_eq_G (x0 : (⟨Cert.ReferenceIdeal.S10000x256, .f32⟩ : BufTy).Contents (Elt Ideal))
    (x1 : (⟨Cert.ReferenceIdeal.S10000x10000, .f32⟩ : BufTy).Contents (Elt Ideal))
    (x2 : (⟨Cert.ReferenceIdeal.S256x256, .f32⟩ : BufTy).Contents (Elt Ideal))
    (x3 : (⟨Cert.ReferenceIdeal.S256, .f32⟩ : BufTy).Contents (Elt Ideal)) :
    Cert.ReferenceIdeal.Read.val_main_v6 (F := Ideal) x0 x1 x2 x3 = Cert.Proof.Spec.G x0 x1 x2 x3 := by
  funext i
  rw [val_main_v6_apply, val_main_v5_apply, val_main_call0_v0_apply, val_main_call0_cst_apply, Ideal.maximumf_def,
    Ideal.ofBits_def, Ideal.ofBits_zero_f32]
  unfold Cert.Proof.Spec.G Cert.Proof.Spec.term
  refine congrArg (max · 0) ?_
  refine Finset.sum_congr rfl fun j _ => ?_
  rw [adj_idx, hidden_eq]
  rfl

end Cert.Proof.RefValue

end
-- ==== Proof.lean ====
/-
  The certificate of a graph-convolution layer, out = relu(adj · (x · Wᵀ + b)), computed by one gridded kernel that
  walks the adjacency's 10000 columns in 27 blocks of 384 and accumulates the partial products adj[:, block] ·
  hid[block, :] in a resident output block, against the plain two-product reference.

  Over the extended reals both programs compute, at (r, c), the positive part of Σ_j adj[r, j] · (Σ_d x[j, d] · W[c, d]
  + b[c]) (`Spec.G`). The reference does so directly (`RefValue.ref_eq_G`, reading its run one operation at a time).
  The kernel adds the sum block by block: the last block overhangs the arrays by 368 columns, whose hidden rows the
  kernel masks to zero, so whatever the buffers hold past the arrays' end contributes zero times something, which is
  zero on the extended reals; addition there is commutative and associative, so the 27 block sums in order are the whole
  sum (`Spec.sum_blocks`). No law that needs finiteness is used: the precondition is never opened.

  The frames: the idealized kernel's is read off its value run; the reference's off its run; the word-level kernel's,
  where the matrix product is an opaque function of buffers whose tails hold machine-picked words, is proved with
  proof data that say nothing of any buffer's contents — its control depends on the grid point only.
-/
import proofs.«139004_g26826365731398_cont_9to1_2211_11_alg».proof.Defs
import proofs.«139004_g26826365731398_cont_9to1_2211_11_alg».proof.Proof.Gen.Kernel
import proofs.«139004_g26826365731398_cont_9to1_2211_11_alg».proof.Proof.Gen.KernelIdeal
import proofs.«139004_g26826365731398_cont_9to1_2211_11_alg».proof.Proof.Gen.ReferenceIdeal
import proofs.«139004_g26826365731398_cont_9to1_2211_11_alg».proof.Proof.Gen.Pre_finite_inputs
import proofs.«139004_g26826365731398_cont_9to1_2211_11_alg».proof.Proof.Gen.ReferenceIdeal.Run
import proofs.«139004_g26826365731398_cont_9to1_2211_11_alg».proof.Proof.Gen.ReferenceIdeal.Read
import proofs.«139004_g26826365731398_cont_9to1_2211_11_alg».proof.Proof.KFrame
import proofs.«139004_g26826365731398_cont_9to1_2211_11_alg».proof.Proof.IRunMain
import proofs.«139004_g26826365731398_cont_9to1_2211_11_alg».proof.Proof.RefValue

noncomputable section

namespace Cert.Proof

open Idealize.ShloMosaic Idealize.ShloMosaic.TcCoe Idealize.SL.Sem

/-- The word-level kernel runs to the end, faults nowhere and leaves its four arrays as launched. -/
theorem frame_k : Cert.frame_Kernel (hKernel := Cert.Kernel.Gen.facts) (hPre_finite_inputs := Cert.Pre_finite_inputs.Gen.facts) :=
  fun m ρ _ => Cert.Proof.KFrame.frame (F := Bits) m ρ

/-- So does the idealized kernel. -/
theorem frame_ki : Cert.frame_KernelIdeal (hKernelIdeal := Cert.KernelIdeal.Gen.facts) (hPre_finite_inputs := Cert.Pre_finite_inputs.Gen.facts) :=
  fun m ρ _ => Cert.Proof.IRun.frame m ρ

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the four arrays both idealized programs end with the result array at the layer
    `Spec.G` of those arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Proof.Spec.G (Cert.Proof.IRun.xA m c) (Cert.Proof.IRun.adjA m c) (Cert.Proof.IRun.wA m c) (Cert.Proof.IRun.bA m c),
    Cert.Proof.IRun.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.Proof.RefValue.ref_eq_G, (hagree c).1, (hagree c).2.1, (hagree c).2.2.1,
    (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
